-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S_ : Shape := ⟨0, ![]⟩

class Facts : Prop where
  bcast_S_S1x2 : S_.BroadcastsInDim S1x2 (![] : Fin 0 → Fin S1x2.rank)
  reducesTo_S1x2_S_d0_1 : S1x2.ReducesTo [0, 1] S_
  h_S_ : 0 < S_.numel
  bcast_S_S9x2 : S_.BroadcastsInDim S9x2 (![] : Fin 0 → Fin S9x2.rank)
  reducesTo_S9x2_S_d0_1 : S9x2.ReducesTo [0, 1] S_
  bcast_S_S9 : S_.BroadcastsInDim S9 (![] : Fin 0 → Fin S9.rank)
  reducesTo_S9_S_d0 : S9.ReducesTo [0] S_
  bcast_S_S18x9x9 : S_.BroadcastsInDim S18x9x9 (![] : Fin 0 → Fin S18x9x9.rank)
  reducesTo_S18x9x9_S_d0_1_2 : S18x9x9.ReducesTo [0, 1, 2] S_
  bcast_S_S18x9 : S_.BroadcastsInDim S18x9 (![] : Fin 0 → Fin S18x9.rank)
  reducesTo_S18x9_S_d0_1 : S18x9.ReducesTo [0, 1] S_
  bcast_S_S3x9 : S_.BroadcastsInDim S3x9 (![] : Fin 0 → Fin S3x9.rank)
  reducesTo_S3x9_S_d0_1 : S3x9.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S18x9 .f32) (main_arg5 : FVec F S3x9 .f32) (main_arg6 : FVec F S3 .f32) (main_v13 : IVec S_ 1) (main_v16 : IVec S18x9x9 1) : IVec S_ 1 :=
  let main_c_5 : IVec S_ 1 := constantI S_ 1 1#1
  let main_v17 : IVec S_ 1 := (fun x v => Host.reduce IntOp.andi x v reducesTo_S18x9x9_S_d0_1_2 h_S_) main_v16 main_c_5
  let main_v18 : IVec S_ 1 := andi main_v13 main_v17
  let main_v19 : FVec F S18x9 .f32 := Host.absf main_arg4
  let main_cst_6 : FVec F S_ .f32 := constant S_ .f32 0x7F800000#32
  let main_v20 : FVec F S18x9 .f32 := broadcastInDim S18x9 ![] bcast_S_S18x9 main_cst_6
  let main_v21 : IVec S18x9 1 := cmpf .olt main_v19 main_v20
  let main_c_7 : IVec S_ 1 := constantI S_ 1 1#1
  let main_v22 : IVec S_ 1 := (fun x v => Host.reduce IntOp.andi x v reducesTo_S18x9_S_d0_1 h_S_) main_v21 main_c_7
  let main_v23 : IVec S_ 1 := andi main_v18 main_v22
  let main_v24 : FVec F S3x9 .f32 := Host.absf main_arg5
  let main_cst_8 : FVec F S_ .f32 := constant S_ .f32 0x7F800000#32
  let main_v25 : FVec F S3x9 .f32 := broadcastInDim S3x9 ![] bcast_S_S3x9 main_cst_8
  let main_v26 : IVec S3x9 1 := cmpf .olt main_v24 main_v25
  let main_c_9 : IVec S_ 1 := constantI S_ 1 1#1
  let main_v27 : IVec S_ 1 := (fun x v => Host.reduce IntOp.andi x v reducesTo_S3x9_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S1x2 .f32) (main_arg1 : FVec F S9x2 .f32) (main_arg2 : FVec F S9 .f32) (main_arg3 : FVec F S18x9x9 .f32) (main_arg4 : FVec F S18x9 .f32) (main_arg5 : FVec F S3x9 .f32) (main_arg6 : FVec F S3 .f32) : IVec S_ 1 :=
  let main_v0 : FVec F S1x2 .f32 := Host.absf main_arg0
  let main_cst : FVec F S_ .f32 := constant S_ .f32 0x7F800000#32
  let main_v1 : FVec F S1x2 .f32 := broadcastInDim S1x2 ![] bcast_S_S1x2 main_cst
  let main_v2 : IVec S1x2 1 := cmpf .olt main_v0 main_v1
  let main_c : IVec S_ 1 := constantI S_ 1 1#1
  let main_v3 : IVec S_ 1 := (fun x v => Host.reduce IntOp.andi x v reducesTo_S1x2_S_d0_1 h_S_) main_v2 main_c
  let main_v4 : FVec F S9x2 .f32 := Host.absf main_arg1
  let main_cst_0 : FVec F S_ .f32 := constant S_ .f32 0x7F800000#32
  let main_v5 : FVec F S9x2 .f32 := broadcastInDim S9x2 ![] bcast_S_S9x2 main_cst_0
  let main_v6 : IVec S9x2 1 := cmpf .olt main_v4 main_v5
  let main_c_1 : IVec S_ 1 := constantI S_ 1 1#1
  let main_v7 : IVec S_ 1 := (fun x v => Host.reduce IntOp.andi x v reducesTo_S9x2_S_d0_1 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S18x9x9 .f32 := Host.absf main_arg3
  let main_cst_4 : FVec F S_ .f32 := constant S_ .f32 0x7F800000#32
  let main_v15 : FVec F S18x9x9 .f32 := broadcastInDim S18x9x9 ![] bcast_S_S18x9x9 main_cst_4
  let main_v16 : IVec S18x9x9 1 := cmpf .olt main_v14 main_v15
  fn_part1 (F := F) main_arg4 main_arg5 main_arg6 main_v13 main_v16
-- ==== Kernel.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S1x162 : Shape := ⟨2, ![1, 162]⟩
abbrev S1x3 : Shape := ⟨2, ![1, 3]⟩
abbrev S2x9 : Shape := ⟨2, ![2, 9]⟩
abbrev S1x9 : Shape := ⟨2, ![1, 9]⟩
abbrev S1x9x9 : Shape := ⟨3, ![1, 9, 9]⟩
abbrev S9x9 : Shape := ⟨2, ![9, 9]⟩
abbrev S9x3 : Shape := ⟨2, ![9, 3]⟩
abbrev S3x6x3x3 : Shape := ⟨4, ![3, 6, 3, 3]⟩

abbrev nBuf : Space → Nat
  | .hbm => 11
  | .vmem => 9
  | .smem => 0
  | _ => 0

abbrev bufTy : (tb : Table) → Fin (tcTables nBuf tb) → BufTy
  | .hbm, ⟨0, _⟩ => ⟨S1x2, .f32⟩
  | .hbm, ⟨1, _⟩ => ⟨S9x2, .f32⟩
  | .hbm, ⟨2, _⟩ => ⟨S9, .f32⟩
  | .hbm, ⟨3, _⟩ => ⟨S18x9x9, .f32⟩
  | .hbm, ⟨4, _⟩ => ⟨S18x9, .f32⟩
  | .hbm, ⟨5, _⟩ => ⟨S3x9, .f32⟩
  | .hbm, ⟨6, _⟩ => ⟨S3, .f32⟩
  | .hbm, ⟨7, _⟩ => ⟨S1x162, .f32⟩
  | .hbm, ⟨8, _⟩ => ⟨S1x3, .f32⟩
  | .hbm, ⟨9, _⟩ => ⟨S3x6x3x3, .f32⟩
  | .hbm, ⟨10, _⟩ => ⟨S3, .f32⟩
  | .local _ .vmem, ⟨0, _⟩ => ⟨S1x2, .f32⟩
  | .local _ .vmem, ⟨1, _⟩ => ⟨S9x2, .f32⟩
  | .local _ .vmem, ⟨2, _⟩ => ⟨S9, .f32⟩
  | .local _ .vmem, ⟨3, _⟩ => ⟨S18x9x9, .f32⟩
  | .local _ .vmem, ⟨4, _⟩ => ⟨S18x9, .f32⟩
  | .local _ .vmem, ⟨5, _⟩ => ⟨S3x9, .f32⟩
  | .local _ .vmem, ⟨6, _⟩ => ⟨S3, .f32⟩
  | .local _ .vmem, ⟨7, _⟩ => ⟨S1x162, .f32⟩
  | .local _ .vmem, ⟨8, _⟩ => ⟨S1x3, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S18x9x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x162 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  inb_S1x2_S1x2_0_0 : ∀ a, (![0, 0] : Fin 2 → Nat) a + S1x2.size a ≤ S1x2.size a
  h_S1x2 : 0 < S1x2.numel
  inb_S9x2_S9x2_0_0 : ∀ a, (![0, 0] : Fin 2 → Nat) a + S9x2.size a ≤ S9x2.size a
  h_S9x2 : 0 < S9x2.numel
  transposes_S9x2_p1_0_S2x9 : S9x2.Transposes [1, 0] S2x9
  inb_S9_S9_0 : ∀ a, (![0] : Fin 1 → Nat) a + S9.size a ≤ S9.size a
  h_S9 : 0 < S9.numel
  shapeCasts_S9_S1x9 : S9.ShapeCasts S1x9
  inb_S18x9x9_S1x9x9_0_0_0 : ∀ a, (![0, 0, 0] : Fin 3 → Nat) a + S1x9x9.size a ≤ S18x9x9.size a
  h_S1x9x9 : 0 < S1x9x9.numel
  shapeCasts_S1x9x9_S9x9 : S1x9x9.ShapeCasts S9x9
  inb_S18x9_S1x9_0_0 : ∀ a, (![0, 0] : Fin 2 → Nat) a + S1x9.size a ≤ S18x9.size a
  h_S1x9 : 0 < S1x9.numel
  shapeCasts_S1x9_S9 : S1x9.ShapeCasts S9
  transposes_S9x9_p1_0_S9x9 : S9x9.Transposes [1, 0] S9x9
  inb_S18x9x9_S1x9x9_1_0_0 : ∀ a, (![1, 0, 0] : Fin 3 → Nat) a + S1x9x9.size a ≤ S18x9x9.size a
  inb_S18x9_S1x9_1_0 : ∀ a, (![1, 0] : Fin 2 → Nat) a + S1x9.size a ≤ S18x9.size a
  inb_S18x9x9_S1x9x9_2_0_0 : ∀ a, (![2, 0, 0] : Fin 3 → Nat) a + S1x9x9.size a ≤ S18x9x9.size a
  inb_S18x9_S1x9_2_0 : ∀ a, (![2, 0] : Fin 2 → Nat) a + S1x9.size a ≤ S18x9.size a
  inb_S18x9x9_S1x9x9_3_0_0 : ∀ a, (![3, 0, 0] : Fin 3 → Nat) a + S1x9x9.size a ≤ S18x9x9.size a
  inb_S18x9_S1x9_3_0 : ∀ a, (![3, 0] : Fin 2 → Nat) a + S1x9.size a ≤ S18x9.size a
  inb_S18x9x9_S1x9x9_4_0_0 : ∀ a, (![4, 0, 0] : Fin 3 → Nat) a + S1x9x9.size a ≤ S18x9x9.size a
  inb_S18x9_S1x9_4_0 : ∀ a, (![4, 0] : Fin 2 → Nat) a + S1x9.size a ≤ S18x9.size a
  inb_S18x9x9_S1x9x9_5_0_0 : ∀ a, (![5, 0, 0] : Fin 3 → Nat) a + S1x9x9.size a ≤ S18x9x9.size a
  inb_S18x9_S1x9_5_0 : ∀ a, (![5, 0] : Fin 2 → Nat) a + S1x9.size a ≤ S18x9.size a
  inb_S18x9x9_S1x9x9_6_0_0 : ∀ a, (![6, 0, 0] : Fin 3 → Nat) a + S1x9x9.size a ≤ S18x9x9.size a
  inb_S18x9_S1x9_6_0 : ∀ a, (![6, 0] : Fin 2 → Nat) a + S1x9.size a ≤ S18x9.size a
  inb_S18x9x9_S1x9x9_7_0_0 : ∀ a, (![7, 0, 0] : Fin 3 → Nat) a + S1x9x9.size a ≤ S18x9x9.size a
  inb_S18x9_S1x9_7_0 : ∀ a, (![7, 0] : Fin 2 → Nat) a + S1x9.size a ≤ S18x9.size a
  inb_S18x9x9_S1x9x9_8_0_0 : ∀ a, (![8, 0, 0] : Fin 3 → Nat) a + S1x9x9.size a ≤ S18x9x9.size a
  inb_S18x9_S1x9_8_0 : ∀ a, (![8, 0] : Fin 2 → Nat) a + S1x9.size a ≤ S18x9.size a
  inb_S18x9x9_S1x9x9_9_0_0 : ∀ a, (![9, 0, 0] : Fin 3 → Nat) a + S1x9x9.size a ≤ S18x9x9.size a
  inb_S18x9_S1x9_9_0 : ∀ a, (![9, 0] : Fin 2 → Nat) a + S1x9.size a ≤ S18x9.size a
  inb_S18x9x9_S1x9x9_10_0_0 : ∀ a, (![10, 0, 0] : Fin 3 → Nat) a + S1x9x9.size a ≤ S18x9x9.size a
  inb_S18x9_S1x9_10_0 : ∀ a, (![10, 0] : Fin 2 → Nat) a + S1x9.size a ≤ S18x9.size a
  inb_S18x9x9_S1x9x9_11_0_0 : ∀ a, (![11, 0, 0] : Fin 3 → Nat) a + S1x9x9.size a ≤ S18x9x9.size a
  inb_S18x9_S1x9_11_0 : ∀ a, (![11, 0] : Fin 2 → Nat) a + S1x9.size a ≤ S18x9.size a
  inb_S18x9x9_S1x9x9_12_0_0 : ∀ a, (![12, 0, 0] : Fin 3 → Nat) a + S1x9x9.size a ≤ S18x9x9.size a
  inb_S18x9_S1x9_12_0 : ∀ a, (![12, 0] : Fin 2 → Nat) a + S1x9.size a ≤ S18x9.size a
  inb_S18x9x9_S1x9x9_13_0_0 : ∀ a, (![13, 0, 0] : Fin 3 → Nat) a + S1x9x9.size a ≤ S18x9x9.size a
  inb_S18x9_S1x9_13_0 : ∀ a, (![13, 0] : Fin 2 → Nat) a + S1x9.size a ≤ S18x9.size a
  inb_S18x9x9_S1x9x9_14_0_0 : ∀ a, (![14, 0, 0] : Fin 3 → Nat) a + S1x9x9.size a ≤ S18x9x9.size a
  inb_S18x9_S1x9_14_0 : ∀ a, (![14, 0] : Fin 2 → Nat) a + S1x9.size a ≤ S18x9.size a
  inb_S18x9x9_S1x9x9_15_0_0 : ∀ a, (![15, 0, 0] : Fin 3 → Nat) a + S1x9x9.size a ≤ S18x9x9.size a
  inb_S18x9_S1x9_15_0 : ∀ a, (![15, 0] : Fin 2 → Nat) a + S1x9.size a ≤ S18x9.size a
  inb_S18x9x9_S1x9x9_16_0_0 : ∀ a, (![16, 0, 0] : Fin 3 → Nat) a + S1x9x9.size a ≤ S18x9x9.size a
  inb_S18x9_S1x9_16_0 : ∀ a, (![16, 0] : Fin 2 → Nat) a + S1x9.size a ≤ S18x9.size a
  inb_S18x9x9_S1x9x9_17_0_0 : ∀ a, (![17, 0, 0] : Fin 3 → Nat) a + S1x9x9.size a ≤ S18x9x9.size a
  inb_S18x9_S1x9_17_0 : ∀ a, (![17, 0] : Fin 2 → Nat) a + S1x9.size a ≤ S18x9.size a
  concatenates_S1x9_S1x9_S1x9_S1x9_S1x9_S1x9_S1x9_S1x9_S1x9_S1x9_S1x9_S1x9_S1x9_S1x9_S1x9_S1x9_S1x9_S1x9_S1x162_d1 : Shape.Concatenates [S1x9, S1x9, S1x9, S1x9, S1x9, S1x9, S1x9, S1x9, S1x9, S1x9, S1x9, S1x9, S1x9, S1x9, S1x9, S1x9, S1x9, S1x9] S1x162 1
  inb_S1x162_S1x162_0_0 : ∀ a, (![0, 0] : Fin 2 → Nat) a + S1x162.size a ≤ S1x162.size a
  h_S1x162 : 0 < S1x162.numel
  inb_S3x9_S3x9_0_0 : ∀ a, (![0, 0] : Fin 2 → Nat) a + S3x9.size a ≤ S3x9.size a
  h_S3x9 : 0 < S3x9.numel
  transposes_S3x9_p1_0_S9x3 : S3x9.Transposes [1, 0] S9x3
  inb_S3_S3_0 : ∀ a, (![0] : Fin 1 → Nat) a + S3.size a ≤ S3.size a
  h_S3 : 0 < S3.numel
  shapeCasts_S3_S1x3 : S3.ShapeCasts S1x3
  inb_S1x3_S1x3_0_0 : ∀ a, (![0, 0] : Fin 2 → Nat) a + S1x3.size a ≤ S1x3.size a
  h_S1x3 : 0 < S1x3.numel
  shapeCasts_S1x162_S3x6x3x3 : S1x162.ShapeCasts S3x6x3x3
  shapeCasts_S1x3_S3 : S1x3.ShapeCasts S3
  dot_S1x2_S2x9_S1x9_1_0_0_1_n_n_wf : DotDims.WF S1x2 S2x9 S1x9 [1] [0] [0] [1] [] []
  dot_S1x9_S9x9_S1x9_1_0_0_1_n_n_wf : DotDims.WF S1x9 S9x9 S1x9 [1] [0] [0] [1] [] []
  dot_S1x9_S9x3_S1x3_1_0_0_1_n_n_wf : DotDims.WF S1x9 S9x3 S1x3 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x2.size a ≤ S9x2.size a
  hwx0_1 : ∀ i : grid0.Coords, EltTy.bits .f32 = 32 ∨ (Rect.block (s := S9x2) S9x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9.size a ≤ S9.size a
  hwx0_2 : ∀ i : grid0.Coords, EltTy.bits .f32 = 32 ∨ (Rect.block (s := S9) S9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S18x9x9.size a ≤ S18x9x9.size a
  hwx0_3 : ∀ i : grid0.Coords, EltTy.bits .f32 = 32 ∨ (Rect.block (s := S18x9x9) S18x9x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18x9.size a ≤ S18x9.size a
  hwx0_4 : ∀ i : grid0.Coords, EltTy.bits .f32 = 32 ∨ (Rect.block (s := S18x9) S18x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x9.size a ≤ S3x9.size a
  hwx0_5 : ∀ i : grid0.Coords, EltTy.bits .f32 = 32 ∨ (Rect.block (s := S3x9) S3x9.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3.size a ≤ S3.size a
  hwx0_6 : ∀ i : grid0.Coords, EltTy.bits .f32 = 32 ∨ (Rect.block (s := S3) S3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x162.size a ≤ S1x162.size a
  hwx0_7 : ∀ i : grid0.Coords, EltTy.bits .f32 = 32 ∨ (Rect.block (s := S1x162) S1x162.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)

variable [Facts₀]

def dot_S1x2_S2x9_S1x9_1_0_0_1_n_n : DotDims S1x2 S2x9 S1x9 where
  lhsContracting := [1]
  rhsContracting := [0]
  lhsNonContracting := [0]
  rhsNonContracting := [1]
  lhsBatch := []
  rhsBatch := []
  wf := dot_S1x2_S2x9_S1x9_1_0_0_1_n_n_wf
def dot_S1x9_S9x9_S1x9_1_0_0_1_n_n : DotDims S1x9 S9x9 S1x9 where
  lhsContracting := [1]
  rhsContracting := [0]
  lhsNonContracting := [0]
  rhsNonContracting := [1]
  lhsBatch := []
  rhsBatch := []
  wf := dot_S1x9_S9x9_S1x9_1_0_0_1_n_n_wf
def dot_S1x9_S9x3_S1x3_1_0_0_1_n_n : DotDims S1x9 S9x3 S1x3 where
  lhsContracting := [1]
  rhsContracting := [0]
  lhsNonContracting := [0]
  rhsNonContracting := [1]
  lhsBatch := []
  rhsBatch := []
  wf := dot_S1x9_S9x3_S1x3_1_0_0_1_n_n_wf

abbrev win0_0 : Pipeline.Window sig grid0 :=
  Pipeline.Window.ofSpec (Memref.whole main_arg0) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S18x9x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S18x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x162.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x3.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S2x9 : Shape := ⟨2, ![2, 9]⟩
abbrev S1x9 : Shape := ⟨2, ![1, 9]⟩
abbrev S1x9x9 : Shape := ⟨3, ![1, 9, 9]⟩
abbrev S9x9 : Shape := ⟨2, ![9, 9]⟩
abbrev S_ : Shape := ⟨0, ![]⟩
abbrev S1x144 : Shape := ⟨2, ![1, 144]⟩
abbrev S1x18 : Shape := ⟨2, ![1, 18]⟩
abbrev S1x162 : Shape := ⟨2, ![1, 162]⟩
abbrev S3x6x3x3 : Shape := ⟨4, ![3, 6, 3, 3]⟩
abbrev S9x3 : Shape := ⟨2, ![9, 3]⟩
abbrev S1x3 : Shape := ⟨2, ![1, 3]⟩

abbrev nBuf : Space → Nat
  | .hbm => 218
  | .vmem => 0
  | .smem => 0
  | _ => 0

abbrev hbmTy0_0 (i : Nat) : BufTy := match i % 128 with
  | 0 => ⟨S1x2, .f32⟩
  | 1 => ⟨S9x2, .f32⟩
  | 2 => ⟨S9, .f32⟩
  | 3 => ⟨S18x9x9, .f32⟩
  | 4 => ⟨S18x9, .f32⟩
  | 5 => ⟨S3x9, .f32⟩
  | 6 => ⟨S3, .f32⟩
  | 7 => ⟨S2x9, .f32⟩
  | 8 => ⟨S1x9, .f32⟩
  | 9 => ⟨S1x9, .f32⟩
  | 10 => ⟨S1x9, .f32⟩
  | 11 => ⟨S1x9x9, .f32⟩
  | 12 => ⟨S9x9, .f32⟩
  | 13 => ⟨S9x9, .f32⟩
  | 14 => ⟨S1x9, .f32⟩
  | 15 => ⟨S1x9, .f32⟩
  | 16 => ⟨S9, .f32⟩
  | 17 => ⟨S1x9, .f32⟩
  | 18 => ⟨S1x9, .f32⟩
  | 19 => ⟨S_, .f32⟩
  | 20 => ⟨S1x9, .f32⟩
  | 21 => ⟨S1x9, .f32⟩
  | 22 => ⟨S1x9x9, .f32⟩
  | 23 => ⟨S9x9, .f32⟩
  | 24 => ⟨S9x9, .f32⟩
  | 25 => ⟨S1x9, .f32⟩
  | 26 => ⟨S1x9, .f32⟩
  | 27 => ⟨S9, .f32⟩
  | 28 => ⟨S1x9, .f32⟩
  | 29 => ⟨S1x9, .f32⟩
  | 30 => ⟨S_, .f32⟩
  | 31 => ⟨S1x9, .f32⟩
  | 32 => ⟨S1x9, .f32⟩
  | 33 => ⟨S1x9x9, .f32⟩
  | 34 => ⟨S9x9, .f32⟩
  | 35 => ⟨S9x9, .f32⟩
  | 36 => ⟨S1x9, .f32⟩
  | 37 => ⟨S1x9, .f32⟩
  | 38 => ⟨S9, .f32⟩
  | 39 => ⟨S1x9, .f32⟩
  | 40 => ⟨S1x9, .f32⟩
  | 41 => ⟨S_, .f32⟩
  | 42 => ⟨S1x9, .f32⟩
  | 43 => ⟨S1x9, .f32⟩
  | 44 => ⟨S1x9x9, .f32⟩
  | 45 => ⟨S9x9, .f32⟩
  | 46 => ⟨S9x9, .f32⟩
  | 47 => ⟨S1x9, .f32⟩
  | 48 => ⟨S1x9, .f32⟩
  | 49 => ⟨S9, .f32⟩
  | 50 => ⟨S1x9, .f32⟩
  | 51 => ⟨S1x9, .f32⟩
  | 52 => ⟨S_, .f32⟩
  | 53 => ⟨S1x9, .f32⟩
  | 54 => ⟨S1x9, .f32⟩
  | 55 => ⟨S1x9x9, .f32⟩
  | 56 => ⟨S9x9, .f32⟩
  | 57 => ⟨S9x9, .f32⟩
  | 58 => ⟨S1x9, .f32⟩
  | 59 => ⟨S1x9, .f32⟩
  | 60 => ⟨S9, .f32⟩
  | 61 => ⟨S1x9, .f32⟩
  | 62 => ⟨S1x9, .f32⟩
  | 63 => ⟨S_, .f32⟩
  | 64 => ⟨S1x9, .f32⟩
  | 65 => ⟨S1x9, .f32⟩
  | 66 => ⟨S1x9x9, .f32⟩
  | 67 => ⟨S9x9, .f32⟩
  | 68 => ⟨S9x9, .f32⟩
  | 69 => ⟨S1x9, .f32⟩
  | 70 => ⟨S1x9, .f32⟩
  | 71 => ⟨S9, .f32⟩
  | 72 => ⟨S1x9, .f32⟩
  | 73 => ⟨S1x9, .f32⟩
  | 74 => ⟨S_, .f32⟩
  | 75 => ⟨S1x9, .f32⟩
  | 76 => ⟨S1x9, .f32⟩
  | 77 => ⟨S1x9x9, .f32⟩
  | 78 => ⟨S9x9, .f32⟩
  | 79 => ⟨S9x9, .f32⟩
  | 80 => ⟨S1x9, .f32⟩
  | 81 => ⟨S1x9, .f32⟩
  | 82 => ⟨S9, .f32⟩
  | 83 => ⟨S1x9, .f32⟩
  | 84 => ⟨S1x9, .f32⟩
  | 85 => ⟨S_, .f32⟩
  | 86 => ⟨S1x9, .f32⟩
  | 87 => ⟨S1x9, .f32⟩
  | 88 => ⟨S1x9x9, .f32⟩
  | 89 => ⟨S9x9, .f32⟩
  | 90 => ⟨S9x9, .f32⟩
  | 91 => ⟨S1x9, .f32⟩
  | 92 => ⟨S1x9, .f32⟩
  | 93 => ⟨S9, .f32⟩
  | 94 => ⟨S1x9, .f32⟩
  | 95 => ⟨S1x9, .f32⟩
  | 96 => ⟨S_, .f32⟩
  | 97 => ⟨S1x9, .f32⟩
  | 98 => ⟨S1x9, .f32⟩
  | 99 => ⟨S1x9x9, .f32⟩
  | 100 => ⟨S9x9, .f32⟩
  | 101 => ⟨S9x9, .f32⟩
  | 102 => ⟨S1x9, .f32⟩
  | 103 => ⟨S1x9, .f32⟩
  | 104 => ⟨S9, .f32⟩
  | 105 => ⟨S1x9, .f32⟩
  | 106 => ⟨S1x9, .f32⟩
  | 107 => ⟨S_, .f32⟩
  | 108 => ⟨S1x9, .f32⟩
  | 109 => ⟨S1x9, .f32⟩
  | 110 => ⟨S1x9x9, .f32⟩
  | 111 => ⟨S9x9, .f32⟩
  | 112 => ⟨S9x9, .f32⟩
  | 113 => ⟨S1x9, .f32⟩
  | 114 => ⟨S1x9, .f32⟩
  | 115 => ⟨S9, .f32⟩
  | 116 => ⟨S1x9, .f32⟩
  | 117 => ⟨S1x9, .f32⟩
  | 118 => ⟨S_, .f32⟩
  | 119 => ⟨S1x9, .f32⟩
  | 120 => ⟨S1x9, .f32⟩
  | 121 => ⟨S1x9x9, .f32⟩
  | 122 => ⟨S9x9, .f32⟩
  | 123 => ⟨S9x9, .f32⟩
  | 124 => ⟨S1x9, .f32⟩
  | 125 => ⟨S1x9, .f32⟩
  | 126 => ⟨S9, .f32⟩
  | 127 => ⟨S1x9, .f32⟩
  | _ => ⟨S1x2, .f32⟩

abbrev hbmTy0_1 (i : Nat) : BufTy := match i % 128 with
  | 0 => ⟨S1x9, .f32⟩
  | 1 => ⟨S_, .f32⟩
  | 2 => ⟨S1x9, .f32⟩
  | 3 => ⟨S1x9, .f32⟩
  | 4 => ⟨S1x9x9, .f32⟩
  | 5 => ⟨S9x9, .f32⟩
  | 6 => ⟨S9x9, .f32⟩
  | 7 => ⟨S1x9, .f32⟩
  | 8 => ⟨S1x9, .f32⟩
  | 9 => ⟨S9, .f32⟩
  | 10 => ⟨S1x9, .f32⟩
  | 11 => ⟨S1x9, .f32⟩
  | 12 => ⟨S_, .f32⟩
  | 13 => ⟨S1x9, .f32⟩
  | 14 => ⟨S1x9, .f32⟩
  | 15 => ⟨S1x9x9, .f32⟩
  | 16 => ⟨S9x9, .f32⟩
  | 17 => ⟨S9x9, .f32⟩
  | 18 => ⟨S1x9, .f32⟩
  | 19 => ⟨S1x9, .f32⟩
  | 20 => ⟨S9, .f32⟩
  | 21 => ⟨S1x9, .f32⟩
  | 22 => ⟨S1x9, .f32⟩
  | 23 => ⟨S_, .f32⟩
  | 24 => ⟨S1x9, .f32⟩
  | 25 => ⟨S1x9, .f32⟩
  | 26 => ⟨S1x9x9, .f32⟩
  | 27 => ⟨S9x9, .f32⟩
  | 28 => ⟨S9x9, .f32⟩
  | 29 => ⟨S1x9, .f32⟩
  | 30 => ⟨S1x9, .f32⟩
  | 31 => ⟨S9, .f32⟩
  | 32 => ⟨S1x9, .f32⟩
  | 33 => ⟨S1x9, .f32⟩
  | 34 => ⟨S_, .f32⟩
  | 35 => ⟨S1x9, .f32⟩
  | 36 => ⟨S1x9, .f32⟩
  | 37 => ⟨S1x9x9, .f32⟩
  | 38 => ⟨S9x9, .f32⟩
  | 39 => ⟨S9x9, .f32⟩
  | 40 => ⟨S1x9, .f32⟩
  | 41 => ⟨S1x9, .f32⟩
  | 42 => ⟨S9, .f32⟩
  | 43 => ⟨S1x9, .f32⟩
  | 44 => ⟨S1x9, .f32⟩
  | 45 => ⟨S_, .f32⟩
  | 46 => ⟨S1x9, .f32⟩
  | 47 => ⟨S1x9, .f32⟩
  | 48 => ⟨S1x9x9, .f32⟩
  | 49 => ⟨S9x9, .f32⟩
  | 50 => ⟨S9x9, .f32⟩
  | 51 => ⟨S1x9, .f32⟩
  | 52 => ⟨S1x9, .f32⟩
  | 53 => ⟨S9, .f32⟩
  | 54 => ⟨S1x9, .f32⟩
  | 55 => ⟨S1x9, .f32⟩
  | 56 => ⟨S_, .f32⟩
  | 57 => ⟨S1x9, .f32⟩
  | 58 => ⟨S1x9, .f32⟩
  | 59 => ⟨S1x9x9, .f32⟩
  | 60 => ⟨S9x9, .f32⟩
  | 61 => ⟨S9x9, .f32⟩
  | 62 => ⟨S1x9, .f32⟩
  | 63 => ⟨S1x9, .f32⟩
  | 64 => ⟨S9, .f32⟩
  | 65 => ⟨S1x9, .f32⟩
  | 66 => ⟨S1x9, .f32⟩
  | 67 => ⟨S_, .f32⟩
  | 68 => ⟨S1x9, .f32⟩
  | 69 => ⟨S1x9, .f32⟩
  | 70 => ⟨S1x9x9, .f32⟩
  | 71 => ⟨S9x9, .f32⟩
  | 72 => ⟨S9x9, .f32⟩
  | 73 => ⟨S1x9, .f32⟩
  | 74 => ⟨S1x9, .f32⟩
  | 75 => ⟨S9, .f32⟩
  | 76 => ⟨S1x9, .f32⟩
  | 77 => ⟨S1x9, .f32⟩
  | 78 => ⟨S1x144, .f32⟩
  | 79 => ⟨S1x18, .f32⟩
  | 80 => ⟨S1x162, .f32⟩
  | 81 => ⟨S3x6x3x3, .f32⟩
  | 82 => ⟨S_, .f32⟩
  | 83 => ⟨S1x9, .f32⟩
  | 84 => ⟨S1x9, .f32⟩
  | 85 => ⟨S9x3, .f32⟩
  | 86 => ⟨S1x3, .f32⟩
  | 87 => ⟨S1x3, .f32⟩
  | 88 => ⟨S1x3, .f32⟩
  | 89 => ⟨S3, .f32⟩
  | _ => ⟨S1x2, .f32⟩

abbrev hbmTy (i : Nat) : BufTy := match i / 128 with
  | 0 => hbmTy0_0 i
  | 1 => hbmTy0_1 i
  | _ => ⟨S1x2, .f32⟩

abbrev bufTy : (tb : Table) → Fin (tcTables nBuf tb) → BufTy
  | .hbm, ⟨i, _⟩ => hbmTy i
  | _, _ => ⟨S1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_cst : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_cst : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call3_cst : Ref sig .tc := ⟨.hbm, 52, rfl⟩
abbrev main_call3_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call4_cst : Ref sig .tc := ⟨.hbm, 63, rfl⟩
abbrev main_call4_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call5_cst : Ref sig .tc := ⟨.hbm, 74, rfl⟩
abbrev main_call5_v0 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call6_cst : Ref sig .tc := ⟨.hbm, 85, rfl⟩
abbrev main_call6_v0 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call8_cst : Ref sig .tc := ⟨.hbm, 107, rfl⟩
abbrev main_call8_v0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_call9_cst : Ref sig .tc := ⟨.hbm, 118, rfl⟩
abbrev main_call9_v0 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call10_cst : Ref sig .tc := ⟨.hbm, 129, rfl⟩
abbrev main_call10_v0 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_call11_cst : Ref sig .tc := ⟨.hbm, 140, rfl⟩
abbrev main_call11_v0 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_call12_cst : Ref sig .tc := ⟨.hbm, 151, rfl⟩
abbrev main_call12_v0 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_call13_cst : Ref sig .tc := ⟨.hbm, 162, rfl⟩
abbrev main_call13_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_call14_cst : Ref sig .tc := ⟨.hbm, 173, rfl⟩
abbrev main_call14_v0 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_call15_cst : Ref sig .tc := ⟨.hbm, 184, rfl⟩
abbrev main_call15_v0 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_call16_cst : Ref sig .tc := ⟨.hbm, 195, rfl⟩
abbrev main_call16_v0 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_call17_cst : Ref sig .tc := ⟨.hbm, 210, rfl⟩
abbrev main_call17_v0 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩

abbrev nD : Nat := 1
abbrev τ : Topo := Topo.v7x

variable {F : FTy → Type} [FloatOps F]

class Facts₀ : Prop where
  transposes_S9x2_S2x9_1_0 : S9x2.Transposes [1, 0] S2x9
  bcast_S9_S1x9_1 : S9.BroadcastsInDim S1x9 (![1] : Fin 1 → Fin S1x9.rank)
  slices_S18x9x9_S1x9x9_0_0_0 : S18x9x9.Slices ![0, 0, 0] S1x9x9
  shapeCasts_S1x9x9_S9x9 : S1x9x9.ShapeCasts S9x9
  transposes_S9x9_S9x9_1_0 : S9x9.Transposes [1, 0] S9x9
  slices_S18x9_S1x9_0_0 : S18x9.Slices ![0, 0] S1x9
  shapeCasts_S1x9_S9 : S1x9.ShapeCasts S9
  bcast_S_S1x9 : S_.BroadcastsInDim S1x9 (![] : Fin 0 → Fin S1x9.rank)
  slices_S18x9x9_S1x9x9_1_0_0 : S18x9x9.Slices ![1, 0, 0] S1x9x9
  slices_S18x9_S1x9_1_0 : S18x9.Slices ![1, 0] S1x9
  slices_S18x9x9_S1x9x9_2_0_0 : S18x9x9.Slices ![2, 0, 0] S1x9x9
  slices_S18x9_S1x9_2_0 : S18x9.Slices ![2, 0] S1x9
  slices_S18x9x9_S1x9x9_3_0_0 : S18x9x9.Slices ![3, 0, 0] S1x9x9
  slices_S18x9_S1x9_3_0 : S18x9.Slices ![3, 0] S1x9
  slices_S18x9x9_S1x9x9_4_0_0 : S18x9x9.Slices ![4, 0, 0] S1x9x9
  slices_S18x9_S1x9_4_0 : S18x9.Slices ![4, 0] S1x9
  slices_S18x9x9_S1x9x9_5_0_0 : S18x9x9.Slices ![5, 0, 0] S1x9x9
  slices_S18x9_S1x9_5_0 : S18x9.Slices ![5, 0] S1x9
  slices_S18x9x9_S1x9x9_6_0_0 : S18x9x9.Slices ![6, 0, 0] S1x9x9
  slices_S18x9_S1x9_6_0 : S18x9.Slices ![6, 0] S1x9
  slices_S18x9x9_S1x9x9_7_0_0 : S18x9x9.Slices ![7, 0, 0] S1x9x9
  slices_S18x9_S1x9_7_0 : S18x9.Slices ![7, 0] S1x9
  slices_S18x9x9_S1x9x9_8_0_0 : S18x9x9.Slices ![8, 0, 0] S1x9x9
  slices_S18x9_S1x9_8_0 : S18x9.Slices ![8, 0] S1x9
  slices_S18x9x9_S1x9x9_9_0_0 : S18x9x9.Slices ![9, 0, 0] S1x9x9
  slices_S18x9_S1x9_9_0 : S18x9.Slices ![9, 0] S1x9
  slices_S18x9x9_S1x9x9_10_0_0 : S18x9x9.Slices ![10, 0, 0] S1x9x9
  slices_S18x9_S1x9_10_0 : S18x9.Slices ![10, 0] S1x9
  slices_S18x9x9_S1x9x9_11_0_0 : S18x9x9.Slices ![11, 0, 0] S1x9x9
  slices_S18x9_S1x9_11_0 : S18x9.Slices ![11, 0] S1x9
  slices_S18x9x9_S1x9x9_12_0_0 : S18x9x9.Slices ![12, 0, 0] S1x9x9
  slices_S18x9_S1x9_12_0 : S18x9.Slices ![12, 0] S1x9
  slices_S18x9x9_S1x9x9_13_0_0 : S18x9x9.Slices ![13, 0, 0] S1x9x9
  slices_S18x9_S1x9_13_0 : S18x9.Slices ![13, 0] S1x9
  slices_S18x9x9_S1x9x9_14_0_0 : S18x9x9.Slices ![14, 0, 0] S1x9x9
  slices_S18x9_S1x9_14_0 : S18x9.Slices ![14, 0] S1x9
  slices_S18x9x9_S1x9x9_15_0_0 : S18x9x9.Slices ![15, 0, 0] S1x9x9
  slices_S18x9_S1x9_15_0 : S18x9.Slices ![15, 0] S1x9
  slices_S18x9x9_S1x9x9_16_0_0 : S18x9x9.Slices ![16, 0, 0] S1x9x9
  slices_S18x9_S1x9_16_0 : S18x9.Slices ![16, 0] S1x9
  slices_S18x9x9_S1x9x9_17_0_0 : S18x9x9.Slices ![17, 0, 0] S1x9x9
  slices_S18x9_S1x9_17_0 : S18x9.Slices ![17, 0] S1x9
  concatenates_S1x9_S1x9_S1x9_S1x9_S1x9_S1x9_S1x9_S1x9_S1x9_S1x9_S1x9_S1x9_S1x9_S1x9_S1x9_S1x9_S1x144_d1 : Shape.Concatenates [S1x9, S1x9, S1x9, S1x9, S1x9, S1x9, S1x9, S1x9, S1x9, S1x9, S1x9, S1x9, S1x9, S1x9, S1x9, S1x9] S1x144 1
  concatenates_S1x9_S1x9_S1x18_d1 : Shape.Concatenates [S1x9, S1x9] S1x18 1
  concatenates_S1x144_S1x18_S1x162_d1 : Shape.Concatenates [S1x144, S1x18] S1x162 1
  shapeCasts_S1x162_S3x6x3x3 : S1x162.ShapeCasts S3x6x3x3
  transposes_S3x9_S9x3_1_0 : S3x9.Transposes [1, 0] S9x3
  bcast_S3_S1x3_1 : S3.BroadcastsInDim S1x3 (![1] : Fin 1 → Fin S1x3.rank)
  shapeCasts_S1x3_S3 : S1x3.ShapeCasts S3
  dot_S1x2_S2x9_S1x9_1_0_0_1_n_n_wf : DotDims.WF S1x2 S2x9 S1x9 [1] [0] [0] [1] [] []
  dot_S1x9_S9x9_S1x9_1_0_0_1_n_n_wf : DotDims.WF S1x9 S9x9 S1x9 [1] [0] [0] [1] [] []
  dot_S1x9_S9x3_S1x3_1_0_0_1_n_n_wf : DotDims.WF S1x9 S9x3 S1x3 [1] [0] [0] [1] [] []

variable [Facts₀]

def dot_S1x2_S2x9_S1x9_1_0_0_1_n_n : DotDims S1x2 S2x9 S1x9 where
  lhsContracting := [1]
  rhsContracting := [0]
  lhsNonContracting := [0]
  rhsNonContracting := [1]
  lhsBatch := []
  rhsBatch := []
  wf := dot_S1x2_S2x9_S1x9_1_0_0_1_n_n_wf
def dot_S1x9_S9x9_S1x9_1_0_0_1_n_n : DotDims S1x9 S9x9 S1x9 where
  lhsContracting := [1]
  rhsContracting := [0]
  lhsNonContracting := [0]
  rhsNonContracting := [1]
  lhsBatch := []
  rhsBatch := []
  wf := dot_S1x9_S9x9_S1x9_1_0_0_1_n_n_wf
def dot_S1x9_S9x3_S1x3_1_0_0_1_n_n : DotDims S1x9 S9x3 S1x3 where
  lhsContracting := [1]
  rhsContracting := [0]
  lhsNonContracting := [0]
  rhsNonContracting := [1]
  lhsBatch := []
  rhsBatch := []
  wf := dot_S1x9_S9x3_S1x3_1_0_0_1_n_n_wf

class Facts : Prop extends Facts₀ where

variable [Facts]
-- ==== Proof.KernelRun.lean ====
/-
  What the idealized kernel's program leaves in its two results.

  The pallas_call has ONE grid point, and every window's block is its whole array (block index zero on every axis).
  So each input block is the argument array itself, each output array ends holding what the body stored — the
  concatenated rows (1 × 162) and the bias row (1 × 3), as the functions `Gen.out0_7` and `Gen.out0_8` of the seven
  argument arrays — and the two host reshapes after the call recast those as 3 × 6 × 3 × 3 and as a vector of 3.
-/
import proofs.«103423_j90924457656423_1_alg».proof.Proof.Gen.KernelIdeal.Frame
import Idealize.ShloMosaic.Lib.Pipeline.Value
import Idealize.ShloMosaic.Lib.StableHlo.Run

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-! ## One point, whole blocks -/

/-- At the one grid point every window's block index is zero on every axis. -/
theorem index_zero : ∀ t : Fin cfg0.N,
    (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) :=
  (by decide +kernel : ∀ t : Fin grid0.N, _)

/-! Each input window's block at the point is its argument array: an element of the block sits in the array at its own
    coordinates. One statement per window (a window's index type is its own). -/

theorem block0 (c : Dev nD) (t : Fin cfg0.N) : iblk m c 0 t = V m c main_arg0 := by
  funext y
  show V m c main_arg0 (((cfg0.win 0).blk t).view.emb y) = V m c main_arg0 y
  exact congrArg (V m c main_arg0) (funext fun a => Fin.ext (win0_0.rect_emb_val_of_index_zero t a ((index_zero t).1 a) y))

theorem block1 (c : Dev nD) (t : Fin cfg0.N) : iblk m c 1 t = V m c main_arg1 := by
  funext y
  show V m c main_arg1 (((cfg0.win 1).blk t).view.emb y) = V m c main_arg1 y
  exact congrArg (V m c main_arg1) (funext fun a => Fin.ext (win0_1.rect_emb_val_of_index_zero t a ((index_zero t).2.1 a) y))

theorem block2 (c : Dev nD) (t : Fin cfg0.N) : iblk m c 2 t = V m c main_arg2 := by
  funext y
  show V m c main_arg2 (((cfg0.win 2).blk t).view.emb y) = V m c main_arg2 y
  exact congrArg (V m c main_arg2) (funext fun a => Fin.ext (win0_2.rect_emb_val_of_index_zero t a ((index_zero t).2.2.1 a) y))

theorem block3 (c : Dev nD) (t : Fin cfg0.N) : iblk m c 3 t = V m c main_arg3 := by
  funext y
  show V m c main_arg3 (((cfg0.win 3).blk t).view.emb y) = V m c main_arg3 y
  exact congrArg (V m c main_arg3) (funext fun a => Fin.ext (win0_3.rect_emb_val_of_index_zero t a ((index_zero t).2.2.2.1 a) y))

theorem block4 (c : Dev nD) (t : Fin cfg0.N) : iblk m c 4 t = V m c main_arg4 := by
  funext y
  show V m c main_arg4 (((cfg0.win 4).blk t).view.emb y) = V m c main_arg4 y
  exact congrArg (V m c main_arg4) (funext fun a => Fin.ext (win0_4.rect_emb_val_of_index_zero t a ((index_zero t).2.2.2.2.1 a) y))

theorem block5 (c : Dev nD) (t : Fin cfg0.N) : iblk m c 5 t = V m c main_arg5 := by
  funext y
  show V m c main_arg5 (((cfg0.win 5).blk t).view.emb y) = V m c main_arg5 y
  exact congrArg (V m c main_arg5) (funext fun a => Fin.ext (win0_5.rect_emb_val_of_index_zero t a ((index_zero t).2.2.2.2.2.1 a) y))

theorem block6 (c : Dev nD) (t : Fin cfg0.N) : iblk m c 6 t = V m c main_arg6 := by
  funext y
  show V m c main_arg6 (((cfg0.win 6).blk t).view.emb y) = V m c main_arg6 y
  exact congrArg (V m c main_arg6) (funext fun a => Fin.ext (win0_6.rect_emb_val_of_index_zero t a ((index_zero t).2.2.2.2.2.2.1 a) y))

/-! ## The two output arrays -/

/-- The concatenated rows the body stores, of the argument arrays as the call finds them. -/
def rowsOf (c : Dev nD) : Vec F S1x162 .f32 :=
  out0_7 (V m c main_arg0) (V m c main_arg1) (V m c main_arg2) (V m c main_arg3) (V m c main_arg4) (V m c main_arg5) (V m c main_arg6)
/-- The bias row the body stores, of the argument arrays as the call finds them. -/
def biasOf (c : Dev nD) : Vec F S1x3 .f32 :=
  out0_8 (V m c main_arg0) (V m c main_arg1) (V m c main_arg2) (V m c main_arg3) (V m c main_arg4) (V m c main_arg5) (V m c main_arg6)

/-- What the point writes back to the rows' array is the whole of `rowsOf`. -/
theorem flushed_rows (c : Dev nD) (t : Fin cfg0.N) :
    (dats m 0 c).flushed 7 t = ((cfg0.win 7).blk t).view.read (Elt F) (rowsOf m c) := by
  show (cfg0.win 7).cut (grid0.coords t) ((dats m 0 c).after 7 t) = _
  rw [after0_7, block0, block1, block2, block3, block4, block5, block6]
  funext y
  show rowsOf m c ((cfg0.win 7).xinj (grid0.coords t) y) = rowsOf m c (((cfg0.win 7).blk t).view.emb y)
  exact congrArg (rowsOf m c) (funext fun a => Fin.ext (win0_7.rect_emb_val_of_index_zero t a ((index_zero t).2.2.2.2.2.2.2.1 a) y).symm)

/-- What the point writes back to the bias' array is the whole of `biasOf`. -/
theorem flushed_bias (c : Dev nD) (t : Fin cfg0.N) :
    (dats m 0 c).flushed 8 t = ((cfg0.win 8).blk t).view.read (Elt F) (biasOf m c) := by
  show (cfg0.win 8).cut (grid0.coords t) ((dats m 0 c).after 8 t) = _
  rw [after0_8, block0, block1, block2, block3, block4, block5, block6]
  funext y
  show biasOf m c ((cfg0.win 8).xinj (grid0.coords t) y) = biasOf m c (((cfg0.win 8).blk t).view.emb y)
  exact congrArg (biasOf m c) (funext fun a => Fin.ext (win0_8.rect_emb_val_of_index_zero t a ((index_zero t).2.2.2.2.2.2.2.2 a) y).symm)

/-- The point's block of the rows' array is all of it. -/
theorem cover_rows (c : Dev nD) (i : ((cfg0.win 7).arr.view.loc (c.tc : Thread nD τ)).2.ty.Idx) :
    ∃ t : Fin cfg0.N, (cfg0.win 7).flush t = true ∧ i ∈ ((cfg0.win 7).blk t).view.set := by
  refine ⟨t0_0, flush0_7 t0_0, ?_⟩
  show i ∈ ((View.whole main_v0_0).slice (win0_7.rect t0_0)).set
  rw [View.set_slice_whole, Rect.mem_set_unit]
  intro a
  have h0 : win0_7.index t0_0 a = 0 := (index_zero t0_0).2.2.2.2.2.2.2.1 a
  have hi : (i a).val < S1x162.size a := (i a).isLt
  constructor
  · show win0_7.index t0_0 a * S1x162.size a ≤ (i a).val
    rw [h0]; omega
  · show (i a).val < win0_7.index t0_0 a * S1x162.size a + S1x162.size a
    rw [h0]; omega

/-- The point's block of the bias' array is all of it. -/
theorem cover_bias (c : Dev nD) (i : ((cfg0.win 8).arr.view.loc (c.tc : Thread nD τ)).2.ty.Idx) :
    ∃ t : Fin cfg0.N, (cfg0.win 8).flush t = true ∧ i ∈ ((cfg0.win 8).blk t).view.set := by
  refine ⟨t0_0, flush0_8 t0_0, ?_⟩
  show i ∈ ((View.whole main_v0_1).slice (win0_8.rect t0_0)).set
  rw [View.set_slice_whole, Rect.mem_set_unit]
  intro a
  have h0 : win0_8.index t0_0 a = 0 := (index_zero t0_0).2.2.2.2.2.2.2.2 a
  have hi : (i a).val < S1x3.size a := (i a).isLt
  constructor
  · show win0_8.index t0_0 a * S1x3.size a ≤ (i a).val
    rw [h0]; omega
  · show (i a).val < win0_8.index t0_0 a * S1x3.size a + S1x3.size a
    rw [h0]; omega

/-- After the call the rows' array holds `rowsOf`. -/
theorem final_rows (c : Dev nD) : (dats m 0 c).arrAt 7 cfg0.N = rowsOf m c :=
  (dats m 0 c).arrAt_eq_of_cover 7 (rowsOf m c) (fun t _ => flushed_rows m c t) (cover_rows c)

/-- After the call the bias' array holds `biasOf`. -/
theorem final_bias (c : Dev nD) : (dats m 0 c).arrAt 8 cfg0.N = biasOf m c :=
  (dats m 0 c).arrAt_eq_of_cover 8 (biasOf m c) (fun t _ => flushed_bias m c t) (cover_bias c)

/-! ## The two reshapes after the call -/

/-- The first result: the rows recast as 3 × 6 × 3 × 3. -/
theorem result_rows (c : Dev nD) :
    Pipeline.afterTail₀ cfgs (dats m) 0 (V0 m) [hostOps1] c main_v1 = shapeCast S3x6x3x3 (rowsOf m c) shapeCasts_S1x162_S3x6x3x3 := by
  unfold Pipeline.afterTail₀
  show StableHlo.after hostOps1 _ (Proc.devRef .tc main_v1) = _
  after_results
  have e : Pipeline.withArrays spec0 c (V0 m c) (fun w => (dats m 0 c).arrAt w cfg0.N) (Proc.devRef .tc (Pipeline.arrRef spec0 7)) = rowsOf m c :=
    (Pipeline.withArrays_arr spec0 launch0.win.arr_inj c (V0 m c) (fun w => (dats m 0 c).arrAt w cfg0.N) 7).trans (final_rows m c)
  exact congrArg (fun X : Vec F S1x162 .f32 => shapeCast S3x6x3x3 X shapeCasts_S1x162_S3x6x3x3) e

/-- The second result: the bias row recast as a vector of 3. -/
theorem result_bias (c : Dev nD) :
    Pipeline.afterTail₀ cfgs (dats m) 0 (V0 m) [hostOps1] c main_v2 = shapeCast S3 (biasOf m c) shapeCasts_S1x3_S3 := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 8)) = biasOf m c :=
    (Pipeline.withArrays_arr spec0 launch0.win.arr_inj c (V0 m c) (fun w => (dats m 0 c).arrAt w cfg0.N) 8).trans (final_bias m c)
  exact congrArg (fun X : Vec F S1x3 .f32 => shapeCast S3 X shapeCasts_S1x3_S3) e

/-! ## The run, read -/

/-- Every weakly fair execution of the program terminates with the two results at the recast rows and bias of the
    argument arrays, and the arguments unchanged. -/
theorem run : θ_run defs (onTc (τ := τ) (main (F := F))) ⟨m, fun _ => 0, ρ⟩ fun r => ∀ c : Dev nD,
      r.2.mem ((c.tc : Thread nD τ).loc main_v1) = shapeCast S3x6x3x3 (rowsOf m c) shapeCasts_S1x162_S3x6x3x3
      ∧ r.2.mem ((c.tc : Thread nD τ).loc main_v2) = shapeCast S3 (biasOf m c) shapeCasts_S1x3_S3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v1 (Pipeline.mem_restRefs_of main_v1 rfl (by decide))).trans (result_rows m c),
      ((h c).2 main_v2 (Pipeline.mem_restRefs_of main_v2 rfl (by decide))).trans (result_bias m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Region

end
-- ==== Proof.RefSpec.lean ====
/-
  The network both programs compute, as ONE compact recursive function of the seven argument arrays, written with
  the reference's own operations.

  `fc0` is the first affine layer on the 1 × 2 input: x · W0ᵀ + b0. `lin h i` is the affine layer with slab `i` of the
  18 × 9 × 9 weights and row `i` of the 18 × 9 biases: h · Ws[i]ᵀ + bs[i]. `relu` is the pointwise maximum with zero.
  `row i` is the output of layer `i`: `row 0 = lin fc0 0` (no relu before the first 9 × 9 layer) and
  `row (i + 1) = lin (relu (row i)) (i + 1)`. `rows` lays the eighteen rows end to end (sixteen, then two, then both,
  as the reference does), and `bias` is the last affine layer, 9 → 3, on `relu (row 17)`.
-/
import proofs.«103423_j90924457656423_1_alg».proof.Proof.Gen.ReferenceIdeal

noncomputable section

namespace Cert.ReferenceIdeal.Chain

open Cert.ReferenceIdeal Cert.ReferenceIdeal.Gen Idealize.ShloMosaic Idealize.ShloMosaic.TcCoe

variable {F : FTy → Type} [FloatOps F]

/-- Slab `i` of the weights is a block of them, for each of the eighteen layers. -/
theorem slab_fits (i : Nat) (hi : i < 18) : S18x9x9.Slices ![i, 0, 0] S1x9x9 :=
  ⟨rfl, fun a => by
    match a with
    | ⟨0, _⟩ => show i + 1 ≤ 18; omega
    | ⟨1, _⟩ => show 0 + 9 ≤ 9; omega
    | ⟨2, _⟩ => show 0 + 9 ≤ 9; omega⟩

/-- Row `i` of the biases is a block of them, for each of the eighteen layers. -/
theorem brow_fits (i : Nat) (hi : i < 18) : S18x9.Slices ![i, 0] S1x9 :=
  ⟨rfl, fun a => by
    match a with
    | ⟨0, _⟩ => show i + 1 ≤ 18; omega
    | ⟨1, _⟩ => show 0 + 9 ≤ 9; omega⟩

variable (d : FVec F S1x2 .f32) (W0 : FVec F S9x2 .f32) (b0 : FVec F S9 .f32) (Ws : FVec F S18x9x9 .f32)
  (bs : FVec F S18x9 .f32) (Wb : FVec F S3x9 .f32) (bb : FVec F S3 .f32)

/-- The first layer, 2 → 9: x · W0ᵀ + b0. -/
def fc0 : FVec F S1x9 .f32 :=
  addf (Host.dotGeneral dot_S1x2_S2x9_S1x9_1_0_0_1_n_n none d (transpose S2x9 [1, 0] W0 transposes_S9x2_S2x9_1_0))
    (broadcastInDim S1x9 ![1] bcast_S9_S1x9_1 b0)

/-- The pointwise maximum with zero. -/
def relu (h : FVec F S1x9 .f32) : FVec F S1x9 .f32 :=
  maximumf h (broadcastInDim S1x9 ![] bcast_S_S1x9 (constant S_ .f32 0x00000000#32))

/-- Layer `i` of the eighteen, 9 → 9: h · Ws[i]ᵀ + bs[i]. -/
def lin (h : FVec F S1x9 .f32) (i : Nat) (hi : i < 18) : FVec F S1x9 .f32 :=
  addf (Host.dotGeneral dot_S1x9_S9x9_S1x9_1_0_0_1_n_n none h
      (transpose S9x9 [1, 0] (shapeCast S9x9 (extractStridedSlice S1x9x9 ![i, 0, 0] Ws (slab_fits i hi)) shapeCasts_S1x9x9_S9x9)
        transposes_S9x9_S9x9_1_0))
    (broadcastInDim S1x9 ![1] bcast_S9_S1x9_1 (shapeCast S9 (extractStridedSlice S1x9 ![i, 0] bs (brow_fits i hi)) shapeCasts_S1x9_S9))

/-- The output of layer `i`: the first 9 × 9 layer acts on `fc0` directly, each later one on the relu of the row before. -/
def row : (i : Nat) → i < 18 → FVec F S1x9 .f32
  | 0, h => lin Ws bs (fc0 d W0 b0) 0 h
  | i + 1, h => lin Ws bs (relu (row i (Nat.lt_of_succ_lt h))) (i + 1) h

/-! The reference's three concatenations, each as a function of its pieces. -/

/-- Sixteen rows of nine laid end to end, 1 × 144. -/
def cat16 (u0 u1 u2 u3 u4 u5 u6 u7 u8 u9 u10 u11 u12 u13 u14 u15 : FVec F S1x9 .f32) : FVec F S1x144 .f32 :=
  concatenate S1x144 1 [⟨S1x9, u0⟩, ⟨S1x9, u1⟩, ⟨S1x9, u2⟩, ⟨S1x9, u3⟩, ⟨S1x9, u4⟩, ⟨S1x9, u5⟩, ⟨S1x9, u6⟩, ⟨S1x9, u7⟩, ⟨S1x9, u8⟩, ⟨S1x9, u9⟩, ⟨S1x9, u10⟩, ⟨S1x9, u11⟩, ⟨S1x9, u12⟩, ⟨S1x9, u13⟩, ⟨S1x9, u14⟩, ⟨S1x9, u15⟩]
    concatenates_S1x9_S1x9_S1x9_S1x9_S1x9_S1x9_S1x9_S1x9_S1x9_S1x9_S1x9_S1x9_S1x9_S1x9_S1x9_S1x9_S1x144_d1

/-- Two rows of nine laid end to end, 1 × 18. -/
def cat2 (a b : FVec F S1x9 .f32) : FVec F S1x18 .f32 :=
  concatenate S1x18 1 [⟨S1x9, a⟩, ⟨S1x9, b⟩] concatenates_S1x9_S1x9_S1x18_d1

/-- A row of 144 and a row of 18 laid end to end, 1 × 162. -/
def catBoth (a : FVec F S1x144 .f32) (b : FVec F S1x18 .f32) : FVec F S1x162 .f32 :=
  concatenate S1x162 1 [⟨S1x144, a⟩, ⟨S1x18, b⟩] concatenates_S1x144_S1x18_S1x162_d1

/-- The eighteen rows laid end to end, 1 × 162: sixteen, then two, then the two results. -/
def rows : FVec F S1x162 .f32 :=
  catBoth
    (cat16 (row d W0 b0 Ws bs 0 (by decide)) (row d W0 b0 Ws bs 1 (by decide)) (row d W0 b0 Ws bs 2 (by decide))
      (row d W0 b0 Ws bs 3 (by decide)) (row d W0 b0 Ws bs 4 (by decide)) (row d W0 b0 Ws bs 5 (by decide))
      (row d W0 b0 Ws bs 6 (by decide)) (row d W0 b0 Ws bs 7 (by decide)) (row d W0 b0 Ws bs 8 (by decide))
      (row d W0 b0 Ws bs 9 (by decide)) (row d W0 b0 Ws bs 10 (by decide)) (row d W0 b0 Ws bs 11 (by decide))
      (row d W0 b0 Ws bs 12 (by decide)) (row d W0 b0 Ws bs 13 (by decide)) (row d W0 b0 Ws bs 14 (by decide))
      (row d W0 b0 Ws bs 15 (by decide)))
    (cat2 (row d W0 b0 Ws bs 16 (by decide)) (row d W0 b0 Ws bs 17 (by decide)))

/-- The last layer, 9 → 3, on the relu of the last row: relu(row 17) · Wbᵀ + bb. -/
def bias : FVec F S1x3 .f32 :=
  addf (Host.dotGeneral dot_S1x9_S9x3_S1x3_1_0_0_1_n_n none (relu (row d W0 b0 Ws bs 17 (by decide)))
      (transpose S9x3 [1, 0] Wb transposes_S3x9_S9x3_1_0))
    (broadcastInDim S1x3 ![1] bcast_S3_S1x3_1 bb)

end Cert.ReferenceIdeal.Chain

end
-- ==== Proof.RefRun.lean ====
/-
  The reference program's run, read in the three windows its @main prints in.

  Each window is a straight line of host operations; @main is the three lines run one after the other, so its run
  leaves every buffer at the fold of the operations' results over the launch contents, window after window. Read at
  the two result buffers, walking the windows last to first, that fold is the compact recursive network of
  `Cert.ReferenceIdeal.Chain`: the eighteen rows laid end to end and recast as 3 × 6 × 3 × 3, and the last layer's
  three numbers recast as a vector. No operation writes an argument buffer.
-/
import proofs.«103423_j90924457656423_1_alg».proof.Proof.Gen.ReferenceIdeal
import proofs.«103423_j90924457656423_1_alg».proof.Proof.RefSpec
import Idealize.ShloMosaic.Lib.StableHlo.Run
import Idealize.ShloMosaic.Lib.Pipeline.Frame

set_option Elab.async false

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-! ## The three windows' operations (a called function's operations stand in its call's place) -/

/-- The first window: the first layer, layers 0 to 5 with the relus between, and the start of layer 6. -/
abbrev ops_part0 : List (HloOp τ sig (Elt F)) :=
  [ unary main_arg1 main_v0 ((transpose S2x9 [1, 0] · transposes_S9x2_S2x9_1_0) : (⟨S9x2, .f32⟩ : BufTy).Contents (Elt F) → (⟨S2x9, .f32⟩ : BufTy).Contents (Elt F)),
    binary main_arg0 main_v0 main_v1 ((fun l r => Host.dotGeneral dot_S1x2_S2x9_S1x9_1_0_0_1_n_n none l r) : (⟨S1x2, .f32⟩ : BufTy).Contents (Elt F) → (⟨S2x9, .f32⟩ : BufTy).Contents (Elt F) → (⟨S1x9, .f32⟩ : BufTy).Contents (Elt F)),
    unary main_arg2 main_v2 (broadcastInDim S1x9 ![1] bcast_S9_S1x9_1 : (⟨S9, .f32⟩ : BufTy).Contents (Elt F) → (⟨S1x9, .f32⟩ : BufTy).Contents (Elt F)),
    binary main_v1 main_v2 main_v3 (addf : (⟨S1x9, .f32⟩ : BufTy).Contents (Elt F) → (⟨S1x9, .f32⟩ : BufTy).Contents (Elt F) → (⟨S1x9, .f32⟩ : BufTy).Contents (Elt F)),
    unary main_arg3 main_v4 ((extractStridedSlice S1x9x9 ![0, 0, 0] · slices_S18x9x9_S1x9x9_0_0_0) : (⟨S18x9x9, .f32⟩ : BufTy).Contents (Elt F) → (⟨S1x9x9, .f32⟩ : BufTy).Contents (Elt F)),
    reshape main_v4 main_v5 rfl shapeCasts_S1x9x9_S9x9,
    unary main_v5 main_v6 ((transpose S9x9 [1, 0] · transposes_S9x9_S9x9_1_0) : (⟨S9x9, .f32⟩ : BufTy).Contents (Elt F) → (⟨S9x9, .f32⟩ : BufTy).Contents (Elt F)),
    binary main_v3 main_v6 main_v7 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v8 ((extractStridedSlice S1x9 ![0, 0] · slices_S18x9_S1x9_0_0) : (⟨S18x9, .f32⟩ : BufTy).Contents (Elt F) → (⟨S1x9, .f32⟩ : BufTy).Contents (Elt F)),
    reshape main_v8 main_v9 rfl shapeCasts_S1x9_S9,
    unary main_v9 main_v10 (broadcastInDim S1x9 ![1] bcast_S9_S1x9_1 : (⟨S9, .f32⟩ : BufTy).Contents (Elt F) → (⟨S1x9, .f32⟩ : BufTy).Contents (Elt F)),
    binary main_v7 main_v10 main_v11 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x9, .f32⟩) main_call0_v0) (broadcastInDim S1x9 ![] bcast_S_S1x9),
    TRef.binary (TRef.of (T := ⟨S1x9, .f32⟩) main_v11) (TRef.of (T := ⟨S1x9, .f32⟩) main_call0_v0) (TRef.of (T := ⟨S1x9, .f32⟩) main_v12) maximumf,
    unary main_arg3 main_v13 ((extractStridedSlice S1x9x9 ![1, 0, 0] · slices_S18x9x9_S1x9x9_1_0_0) : (⟨S18x9x9, .f32⟩ : BufTy).Contents (Elt F) → (⟨S1x9x9, .f32⟩ : BufTy).Contents (Elt F)),
    reshape main_v13 main_v14 rfl shapeCasts_S1x9x9_S9x9,
    unary main_v14 main_v15 ((transpose S9x9 [1, 0] · transposes_S9x9_S9x9_1_0) : (⟨S9x9, .f32⟩ : BufTy).Contents (Elt F) → (⟨S9x9, .f32⟩ : BufTy).Contents (Elt F)),
    binary main_v12 main_v15 main_v16 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v17 ((extractStridedSlice S1x9 ![1, 0] · slices_S18x9_S1x9_1_0) : (⟨S18x9, .f32⟩ : BufTy).Contents (Elt F) → (⟨S1x9, .f32⟩ : BufTy).Contents (Elt F)),
    reshape main_v17 main_v18 rfl shapeCasts_S1x9_S9,
    unary main_v18 main_v19 (broadcastInDim S1x9 ![1] bcast_S9_S1x9_1 : (⟨S9, .f32⟩ : BufTy).Contents (Elt F) → (⟨S1x9, .f32⟩ : BufTy).Contents (Elt F)),
    binary main_v16 main_v19 main_v20 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x9, .f32⟩) main_call1_v0) (broadcastInDim S1x9 ![] bcast_S_S1x9),
    TRef.binary (TRef.of (T := ⟨S1x9, .f32⟩) main_v20) (TRef.of (T := ⟨S1x9, .f32⟩) main_call1_v0) (TRef.of (T := ⟨S1x9, .f32⟩) main_v21) maximumf,
    unary main_arg3 main_v22 ((extractStridedSlice S1x9x9 ![2, 0, 0] · slices_S18x9x9_S1x9x9_2_0_0) : (⟨S18x9x9, .f32⟩ : BufTy).Contents (Elt F) → (⟨S1x9x9, .f32⟩ : BufTy).Contents (Elt F)),
    reshape main_v22 main_v23 rfl shapeCasts_S1x9x9_S9x9,
    unary main_v23 main_v24 ((transpose S9x9 [1, 0] · transposes_S9x9_S9x9_1_0) : (⟨S9x9, .f32⟩ : BufTy).Contents (Elt F) → (⟨S9x9, .f32⟩ : BufTy).Contents (Elt F)),
    binary main_v21 main_v24 main_v25 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v26 ((extractStridedSlice S1x9 ![2, 0] · slices_S18x9_S1x9_2_0) : (⟨S18x9, .f32⟩ : BufTy).Contents (Elt F) → (⟨S1x9, .f32⟩ : BufTy).Contents (Elt F)),
    reshape main_v26 main_v27 rfl shapeCasts_S1x9_S9,
    unary main_v27 main_v28 (broadcastInDim S1x9 ![1] bcast_S9_S1x9_1 : (⟨S9, .f32⟩ : BufTy).Contents (Elt F) → (⟨S1x9, .f32⟩ : BufTy).Contents (Elt F)),
    binary main_v25 main_v28 main_v29 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1x9, .f32⟩) main_call2_v0) (broadcastInDim S1x9 ![] bcast_S_S1x9),
    TRef.binary (TRef.of (T := ⟨S1x9, .f32⟩) main_v29) (TRef.of (T := ⟨S1x9, .f32⟩) main_call2_v0) (TRef.of (T := ⟨S1x9, .f32⟩) main_v30) maximumf,
    unary main_arg3 main_v31 ((extractStridedSlice S1x9x9 ![3, 0, 0] · slices_S18x9x9_S1x9x9_3_0_0) : (⟨S18x9x9, .f32⟩ : BufTy).Contents (Elt F) → (⟨S1x9x9, .f32⟩ : BufTy).Contents (Elt F)),
    reshape main_v31 main_v32 rfl shapeCasts_S1x9x9_S9x9,
    unary main_v32 main_v33 ((transpose S9x9 [1, 0] · transposes_S9x9_S9x9_1_0) : (⟨S9x9, .f32⟩ : BufTy).Contents (Elt F) → (⟨S9x9, .f32⟩ : BufTy).Contents (Elt F)),
    binary main_v30 main_v33 main_v34 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v35 ((extractStridedSlice S1x9 ![3, 0] · slices_S18x9_S1x9_3_0) : (⟨S18x9, .f32⟩ : BufTy).Contents (Elt F) → (⟨S1x9, .f32⟩ : BufTy).Contents (Elt F)),
    reshape main_v35 main_v36 rfl shapeCasts_S1x9_S9,
    unary main_v36 main_v37 (broadcastInDim S1x9 ![1] bcast_S9_S1x9_1 : (⟨S9, .f32⟩ : BufTy).Contents (Elt F) → (⟨S1x9, .f32⟩ : BufTy).Contents (Elt F)),
    binary main_v34 main_v37 main_v38 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x9, .f32⟩) main_call3_v0) (broadcastInDim S1x9 ![] bcast_S_S1x9),
    TRef.binary (TRef.of (T := ⟨S1x9, .f32⟩) main_v38) (TRef.of (T := ⟨S1x9, .f32⟩) main_call3_v0) (TRef.of (T := ⟨S1x9, .f32⟩) main_v39) maximumf,
    unary main_arg3 main_v40 ((extractStridedSlice S1x9x9 ![4, 0, 0] · slices_S18x9x9_S1x9x9_4_0_0) : (⟨S18x9x9, .f32⟩ : BufTy).Contents (Elt F) → (⟨S1x9x9, .f32⟩ : BufTy).Contents (Elt F)),
    reshape main_v40 main_v41 rfl shapeCasts_S1x9x9_S9x9,
    unary main_v41 main_v42 ((transpose S9x9 [1, 0] · transposes_S9x9_S9x9_1_0) : (⟨S9x9, .f32⟩ : BufTy).Contents (Elt F) → (⟨S9x9, .f32⟩ : BufTy).Contents (Elt F)),
    binary main_v39 main_v42 main_v43 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v44 ((extractStridedSlice S1x9 ![4, 0] · slices_S18x9_S1x9_4_0) : (⟨S18x9, .f32⟩ : BufTy).Contents (Elt F) → (⟨S1x9, .f32⟩ : BufTy).Contents (Elt F)),
    reshape main_v44 main_v45 rfl shapeCasts_S1x9_S9,
    unary main_v45 main_v46 (broadcastInDim S1x9 ![1] bcast_S9_S1x9_1 : (⟨S9, .f32⟩ : BufTy).Contents (Elt F) → (⟨S1x9, .f32⟩ : BufTy).Contents (Elt F)),
    binary main_v43 main_v46 main_v47 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1x9, .f32⟩) main_call4_v0) (broadcastInDim S1x9 ![] bcast_S_S1x9),
    TRef.binary (TRef.of (T := ⟨S1x9, .f32⟩) main_v47) (TRef.of (T := ⟨S1x9, .f32⟩) main_call4_v0) (TRef.of (T := ⟨S1x9, .f32⟩) main_v48) maximumf,
    unary main_arg3 main_v49 ((extractStridedSlice S1x9x9 ![5, 0, 0] · slices_S18x9x9_S1x9x9_5_0_0) : (⟨S18x9x9, .f32⟩ : BufTy).Contents (Elt F) → (⟨S1x9x9, .f32⟩ : BufTy).Contents (Elt F)),
    reshape main_v49 main_v50 rfl shapeCasts_S1x9x9_S9x9,
    unary main_v50 main_v51 ((transpose S9x9 [1, 0] · transposes_S9x9_S9x9_1_0) : (⟨S9x9, .f32⟩ : BufTy).Contents (Elt F) → (⟨S9x9, .f32⟩ : BufTy).Contents (Elt F)),
    binary main_v48 main_v51 main_v52 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v53 ((extractStridedSlice S1x9 ![5, 0] · slices_S18x9_S1x9_5_0) : (⟨S18x9, .f32⟩ : BufTy).Contents (Elt F) → (⟨S1x9, .f32⟩ : BufTy).Contents (Elt F)),
    reshape main_v53 main_v54 rfl shapeCasts_S1x9_S9,
    unary main_v54 main_v55 (broadcastInDim S1x9 ![1] bcast_S9_S1x9_1 : (⟨S9, .f32⟩ : BufTy).Contents (Elt F) → (⟨S1x9, .f32⟩ : BufTy).Contents (Elt F)),
    binary main_v52 main_v55 main_v56 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x9, .f32⟩) main_call5_v0) (broadcastInDim S1x9 ![] bcast_S_S1x9),
    TRef.binary (TRef.of (T := ⟨S1x9, .f32⟩) main_v56) (TRef.of (T := ⟨S1x9, .f32⟩) main_call5_v0) (TRef.of (T := ⟨S1x9, .f32⟩) main_v57) maximumf,
    unary main_arg3 main_v58 ((extractStridedSlice S1x9x9 ![6, 0, 0] · slices_S18x9x9_S1x9x9_6_0_0) : (⟨S18x9x9, .f32⟩ : BufTy).Contents (Elt F) → (⟨S1x9x9, .f32⟩ : BufTy).Contents (Elt F)),
    reshape main_v58 main_v59 rfl shapeCasts_S1x9x9_S9x9 ]

/-- The second window: the rest of layer 6, and layers 7 to 12 with the relus between. -/
abbrev ops_part1 : List (HloOp τ sig (Elt F)) :=
  [ unary main_v59 main_v60 ((transpose S9x9 [1, 0] · transposes_S9x9_S9x9_1_0) : (⟨S9x9, .f32⟩ : BufTy).Contents (Elt F) → (⟨S9x9, .f32⟩ : BufTy).Contents (Elt F)),
    binary main_v57 main_v60 main_v61 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v62 ((extractStridedSlice S1x9 ![6, 0] · slices_S18x9_S1x9_6_0) : (⟨S18x9, .f32⟩ : BufTy).Contents (Elt F) → (⟨S1x9, .f32⟩ : BufTy).Contents (Elt F)),
    reshape main_v62 main_v63 rfl shapeCasts_S1x9_S9,
    unary main_v63 main_v64 (broadcastInDim S1x9 ![1] bcast_S9_S1x9_1 : (⟨S9, .f32⟩ : BufTy).Contents (Elt F) → (⟨S1x9, .f32⟩ : BufTy).Contents (Elt F)),
    binary main_v61 main_v64 main_v65 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1x9, .f32⟩) main_call6_v0) (broadcastInDim S1x9 ![] bcast_S_S1x9),
    TRef.binary (TRef.of (T := ⟨S1x9, .f32⟩) main_v65) (TRef.of (T := ⟨S1x9, .f32⟩) main_call6_v0) (TRef.of (T := ⟨S1x9, .f32⟩) main_v66) maximumf,
    unary main_arg3 main_v67 ((extractStridedSlice S1x9x9 ![7, 0, 0] · slices_S18x9x9_S1x9x9_7_0_0) : (⟨S18x9x9, .f32⟩ : BufTy).Contents (Elt F) → (⟨S1x9x9, .f32⟩ : BufTy).Contents (Elt F)),
    reshape main_v67 main_v68 rfl shapeCasts_S1x9x9_S9x9,
    unary main_v68 main_v69 ((transpose S9x9 [1, 0] · transposes_S9x9_S9x9_1_0) : (⟨S9x9, .f32⟩ : BufTy).Contents (Elt F) → (⟨S9x9, .f32⟩ : BufTy).Contents (Elt F)),
    binary main_v66 main_v69 main_v70 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v71 ((extractStridedSlice S1x9 ![7, 0] · slices_S18x9_S1x9_7_0) : (⟨S18x9, .f32⟩ : BufTy).Contents (Elt F) → (⟨S1x9, .f32⟩ : BufTy).Contents (Elt F)),
    reshape main_v71 main_v72 rfl shapeCasts_S1x9_S9,
    unary main_v72 main_v73 (broadcastInDim S1x9 ![1] bcast_S9_S1x9_1 : (⟨S9, .f32⟩ : BufTy).Contents (Elt F) → (⟨S1x9, .f32⟩ : BufTy).Contents (Elt F)),
    binary main_v70 main_v73 main_v74 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1x9, .f32⟩) main_call7_v0) (broadcastInDim S1x9 ![] bcast_S_S1x9),
    TRef.binary (TRef.of (T := ⟨S1x9, .f32⟩) main_v74) (TRef.of (T := ⟨S1x9, .f32⟩) main_call7_v0) (TRef.of (T := ⟨S1x9, .f32⟩) main_v75) maximumf,
    unary main_arg3 main_v76 ((extractStridedSlice S1x9x9 ![8, 0, 0] · slices_S18x9x9_S1x9x9_8_0_0) : (⟨S18x9x9, .f32⟩ : BufTy).Contents (Elt F) → (⟨S1x9x9, .f32⟩ : BufTy).Contents (Elt F)),
    reshape main_v76 main_v77 rfl shapeCasts_S1x9x9_S9x9,
    unary main_v77 main_v78 ((transpose S9x9 [1, 0] · transposes_S9x9_S9x9_1_0) : (⟨S9x9, .f32⟩ : BufTy).Contents (Elt F) → (⟨S9x9, .f32⟩ : BufTy).Contents (Elt F)),
    binary main_v75 main_v78 main_v79 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v80 ((extractStridedSlice S1x9 ![8, 0] · slices_S18x9_S1x9_8_0) : (⟨S18x9, .f32⟩ : BufTy).Contents (Elt F) → (⟨S1x9, .f32⟩ : BufTy).Contents (Elt F)),
    reshape main_v80 main_v81 rfl shapeCasts_S1x9_S9,
    unary main_v81 main_v82 (broadcastInDim S1x9 ![1] bcast_S9_S1x9_1 : (⟨S9, .f32⟩ : BufTy).Contents (Elt F) → (⟨S1x9, .f32⟩ : BufTy).Contents (Elt F)),
    binary main_v79 main_v82 main_v83 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x9, .f32⟩) main_call8_v0) (broadcastInDim S1x9 ![] bcast_S_S1x9),
    TRef.binary (TRef.of (T := ⟨S1x9, .f32⟩) main_v83) (TRef.of (T := ⟨S1x9, .f32⟩) main_call8_v0) (TRef.of (T := ⟨S1x9, .f32⟩) main_v84) maximumf,
    unary main_arg3 main_v85 ((extractStridedSlice S1x9x9 ![9, 0, 0] · slices_S18x9x9_S1x9x9_9_0_0) : (⟨S18x9x9, .f32⟩ : BufTy).Contents (Elt F) → (⟨S1x9x9, .f32⟩ : BufTy).Contents (Elt F)),
    reshape main_v85 main_v86 rfl shapeCasts_S1x9x9_S9x9,
    unary main_v86 main_v87 ((transpose S9x9 [1, 0] · transposes_S9x9_S9x9_1_0) : (⟨S9x9, .f32⟩ : BufTy).Contents (Elt F) → (⟨S9x9, .f32⟩ : BufTy).Contents (Elt F)),
    binary main_v84 main_v87 main_v88 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v89 ((extractStridedSlice S1x9 ![9, 0] · slices_S18x9_S1x9_9_0) : (⟨S18x9, .f32⟩ : BufTy).Contents (Elt F) → (⟨S1x9, .f32⟩ : BufTy).Contents (Elt F)),
    reshape main_v89 main_v90 rfl shapeCasts_S1x9_S9,
    unary main_v90 main_v91 (broadcastInDim S1x9 ![1] bcast_S9_S1x9_1 : (⟨S9, .f32⟩ : BufTy).Contents (Elt F) → (⟨S1x9, .f32⟩ : BufTy).Contents (Elt F)),
    binary main_v88 main_v91 main_v92 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1x9, .f32⟩) main_call9_v0) (broadcastInDim S1x9 ![] bcast_S_S1x9),
    TRef.binary (TRef.of (T := ⟨S1x9, .f32⟩) main_v92) (TRef.of (T := ⟨S1x9, .f32⟩) main_call9_v0) (TRef.of (T := ⟨S1x9, .f32⟩) main_v93) maximumf,
    unary main_arg3 main_v94 ((extractStridedSlice S1x9x9 ![10, 0, 0] · slices_S18x9x9_S1x9x9_10_0_0) : (⟨S18x9x9, .f32⟩ : BufTy).Contents (Elt F) → (⟨S1x9x9, .f32⟩ : BufTy).Contents (Elt F)),
    reshape main_v94 main_v95 rfl shapeCasts_S1x9x9_S9x9,
    unary main_v95 main_v96 ((transpose S9x9 [1, 0] · transposes_S9x9_S9x9_1_0) : (⟨S9x9, .f32⟩ : BufTy).Contents (Elt F) → (⟨S9x9, .f32⟩ : BufTy).Contents (Elt F)),
    binary main_v93 main_v96 main_v97 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v98 ((extractStridedSlice S1x9 ![10, 0] · slices_S18x9_S1x9_10_0) : (⟨S18x9, .f32⟩ : BufTy).Contents (Elt F) → (⟨S1x9, .f32⟩ : BufTy).Contents (Elt F)),
    reshape main_v98 main_v99 rfl shapeCasts_S1x9_S9,
    unary main_v99 main_v100 (broadcastInDim S1x9 ![1] bcast_S9_S1x9_1 : (⟨S9, .f32⟩ : BufTy).Contents (Elt F) → (⟨S1x9, .f32⟩ : BufTy).Contents (Elt F)),
    binary main_v97 main_v100 main_v101 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1x9, .f32⟩) main_call10_v0) (broadcastInDim S1x9 ![] bcast_S_S1x9),
    TRef.binary (TRef.of (T := ⟨S1x9, .f32⟩) main_v101) (TRef.of (T := ⟨S1x9, .f32⟩) main_call10_v0) (TRef.of (T := ⟨S1x9, .f32⟩) main_v102) maximumf,
    unary main_arg3 main_v103 ((extractStridedSlice S1x9x9 ![11, 0, 0] · slices_S18x9x9_S1x9x9_11_0_0) : (⟨S18x9x9, .f32⟩ : BufTy).Contents (Elt F) → (⟨S1x9x9, .f32⟩ : BufTy).Contents (Elt F)),
    reshape main_v103 main_v104 rfl shapeCasts_S1x9x9_S9x9,
    unary main_v104 main_v105 ((transpose S9x9 [1, 0] · transposes_S9x9_S9x9_1_0) : (⟨S9x9, .f32⟩ : BufTy).Contents (Elt F) → (⟨S9x9, .f32⟩ : BufTy).Contents (Elt F)),
    binary main_v102 main_v105 main_v106 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v107 ((extractStridedSlice S1x9 ![11, 0] · slices_S18x9_S1x9_11_0) : (⟨S18x9, .f32⟩ : BufTy).Contents (Elt F) → (⟨S1x9, .f32⟩ : BufTy).Contents (Elt F)),
    reshape main_v107 main_v108 rfl shapeCasts_S1x9_S9,
    unary main_v108 main_v109 (broadcastInDim S1x9 ![1] bcast_S9_S1x9_1 : (⟨S9, .f32⟩ : BufTy).Contents (Elt F) → (⟨S1x9, .f32⟩ : BufTy).Contents (Elt F)),
    binary main_v106 main_v109 main_v110 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1x9, .f32⟩) main_call11_v0) (broadcastInDim S1x9 ![] bcast_S_S1x9),
    TRef.binary (TRef.of (T := ⟨S1x9, .f32⟩) main_v110) (TRef.of (T := ⟨S1x9, .f32⟩) main_call11_v0) (TRef.of (T := ⟨S1x9, .f32⟩) main_v111) maximumf,
    unary main_arg3 main_v112 ((extractStridedSlice S1x9x9 ![12, 0, 0] · slices_S18x9x9_S1x9x9_12_0_0) : (⟨S18x9x9, .f32⟩ : BufTy).Contents (Elt F) → (⟨S1x9x9, .f32⟩ : BufTy).Contents (Elt F)),
    reshape main_v112 main_v113 rfl shapeCasts_S1x9x9_S9x9,
    unary main_v113 main_v114 ((transpose S9x9 [1, 0] · transposes_S9x9_S9x9_1_0) : (⟨S9x9, .f32⟩ : BufTy).Contents (Elt F) → (⟨S9x9, .f32⟩ : BufTy).Contents (Elt F)),
    binary main_v111 main_v114 main_v115 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v116 ((extractStridedSlice S1x9 ![12, 0] · slices_S18x9_S1x9_12_0) : (⟨S18x9, .f32⟩ : BufTy).Contents (Elt F) → (⟨S1x9, .f32⟩ : BufTy).Contents (Elt F)),
    reshape main_v116 main_v117 rfl shapeCasts_S1x9_S9,
    unary main_v117 main_v118 (broadcastInDim S1x9 ![1] bcast_S9_S1x9_1 : (⟨S9, .f32⟩ : BufTy).Contents (Elt F) → (⟨S1x9, .f32⟩ : BufTy).Contents (Elt F)),
    binary main_v115 main_v118 main_v119 (addf : (⟨S1x9, .f32⟩ : BufTy).Contents (Elt F) → (⟨S1x9, .f32⟩ : BufTy).Contents (Elt F) → (⟨S1x9, .f32⟩ : BufTy).Contents (Elt F)) ]

/-- The third window: layers 13 to 17, the rows laid end to end and recast, and the last layer. -/
abbrev ops_part2 : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S1x9, .f32⟩) main_call12_v0) (broadcastInDim S1x9 ![] bcast_S_S1x9),
    TRef.binary (TRef.of (T := ⟨S1x9, .f32⟩) main_v119) (TRef.of (T := ⟨S1x9, .f32⟩) main_call12_v0) (TRef.of (T := ⟨S1x9, .f32⟩) main_v120) maximumf,
    unary main_arg3 main_v121 ((extractStridedSlice S1x9x9 ![13, 0, 0] · slices_S18x9x9_S1x9x9_13_0_0) : (⟨S18x9x9, .f32⟩ : BufTy).Contents (Elt F) → (⟨S1x9x9, .f32⟩ : BufTy).Contents (Elt F)),
    reshape main_v121 main_v122 rfl shapeCasts_S1x9x9_S9x9,
    unary main_v122 main_v123 ((transpose S9x9 [1, 0] · transposes_S9x9_S9x9_1_0) : (⟨S9x9, .f32⟩ : BufTy).Contents (Elt F) → (⟨S9x9, .f32⟩ : BufTy).Contents (Elt F)),
    binary main_v120 main_v123 main_v124 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v125 ((extractStridedSlice S1x9 ![13, 0] · slices_S18x9_S1x9_13_0) : (⟨S18x9, .f32⟩ : BufTy).Contents (Elt F) → (⟨S1x9, .f32⟩ : BufTy).Contents (Elt F)),
    reshape main_v125 main_v126 rfl shapeCasts_S1x9_S9,
    unary main_v126 main_v127 (broadcastInDim S1x9 ![1] bcast_S9_S1x9_1 : (⟨S9, .f32⟩ : BufTy).Contents (Elt F) → (⟨S1x9, .f32⟩ : BufTy).Contents (Elt F)),
    binary main_v124 main_v127 main_v128 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S1x9, .f32⟩) main_call13_v0) (broadcastInDim S1x9 ![] bcast_S_S1x9),
    TRef.binary (TRef.of (T := ⟨S1x9, .f32⟩) main_v128) (TRef.of (T := ⟨S1x9, .f32⟩) main_call13_v0) (TRef.of (T := ⟨S1x9, .f32⟩) main_v129) maximumf,
    unary main_arg3 main_v130 ((extractStridedSlice S1x9x9 ![14, 0, 0] · slices_S18x9x9_S1x9x9_14_0_0) : (⟨S18x9x9, .f32⟩ : BufTy).Contents (Elt F) → (⟨S1x9x9, .f32⟩ : BufTy).Contents (Elt F)),
    reshape main_v130 main_v131 rfl shapeCasts_S1x9x9_S9x9,
    unary main_v131 main_v132 ((transpose S9x9 [1, 0] · transposes_S9x9_S9x9_1_0) : (⟨S9x9, .f32⟩ : BufTy).Contents (Elt F) → (⟨S9x9, .f32⟩ : BufTy).Contents (Elt F)),
    binary main_v129 main_v132 main_v133 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v134 ((extractStridedSlice S1x9 ![14, 0] · slices_S18x9_S1x9_14_0) : (⟨S18x9, .f32⟩ : BufTy).Contents (Elt F) → (⟨S1x9, .f32⟩ : BufTy).Contents (Elt F)),
    reshape main_v134 main_v135 rfl shapeCasts_S1x9_S9,
    unary main_v135 main_v136 (broadcastInDim S1x9 ![1] bcast_S9_S1x9_1 : (⟨S9, .f32⟩ : BufTy).Contents (Elt F) → (⟨S1x9, .f32⟩ : BufTy).Contents (Elt F)),
    binary main_v133 main_v136 main_v137 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S1x9, .f32⟩) main_call14_v0) (broadcastInDim S1x9 ![] bcast_S_S1x9),
    TRef.binary (TRef.of (T := ⟨S1x9, .f32⟩) main_v137) (TRef.of (T := ⟨S1x9, .f32⟩) main_call14_v0) (TRef.of (T := ⟨S1x9, .f32⟩) main_v138) maximumf,
    unary main_arg3 main_v139 ((extractStridedSlice S1x9x9 ![15, 0, 0] · slices_S18x9x9_S1x9x9_15_0_0) : (⟨S18x9x9, .f32⟩ : BufTy).Contents (Elt F) → (⟨S1x9x9, .f32⟩ : BufTy).Contents (Elt F)),
    reshape main_v139 main_v140 rfl shapeCasts_S1x9x9_S9x9,
    unary main_v140 main_v141 ((transpose S9x9 [1, 0] · transposes_S9x9_S9x9_1_0) : (⟨S9x9, .f32⟩ : BufTy).Contents (Elt F) → (⟨S9x9, .f32⟩ : BufTy).Contents (Elt F)),
    binary main_v138 main_v141 main_v142 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v143 ((extractStridedSlice S1x9 ![15, 0] · slices_S18x9_S1x9_15_0) : (⟨S18x9, .f32⟩ : BufTy).Contents (Elt F) → (⟨S1x9, .f32⟩ : BufTy).Contents (Elt F)),
    reshape main_v143 main_v144 rfl shapeCasts_S1x9_S9,
    unary main_v144 main_v145 (broadcastInDim S1x9 ![1] bcast_S9_S1x9_1 : (⟨S9, .f32⟩ : BufTy).Contents (Elt F) → (⟨S1x9, .f32⟩ : BufTy).Contents (Elt F)),
    binary main_v142 main_v145 main_v146 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S1x9, .f32⟩) main_call15_v0) (broadcastInDim S1x9 ![] bcast_S_S1x9),
    TRef.binary (TRef.of (T := ⟨S1x9, .f32⟩) main_v146) (TRef.of (T := ⟨S1x9, .f32⟩) main_call15_v0) (TRef.of (T := ⟨S1x9, .f32⟩) main_v147) maximumf,
    unary main_arg3 main_v148 ((extractStridedSlice S1x9x9 ![16, 0, 0] · slices_S18x9x9_S1x9x9_16_0_0) : (⟨S18x9x9, .f32⟩ : BufTy).Contents (Elt F) → (⟨S1x9x9, .f32⟩ : BufTy).Contents (Elt F)),
    reshape main_v148 main_v149 rfl shapeCasts_S1x9x9_S9x9,
    unary main_v149 main_v150 ((transpose S9x9 [1, 0] · transposes_S9x9_S9x9_1_0) : (⟨S9x9, .f32⟩ : BufTy).Contents (Elt F) → (⟨S9x9, .f32⟩ : BufTy).Contents (Elt F)),
    binary main_v147 main_v150 main_v151 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v152 ((extractStridedSlice S1x9 ![16, 0] · slices_S18x9_S1x9_16_0) : (⟨S18x9, .f32⟩ : BufTy).Contents (Elt F) → (⟨S1x9, .f32⟩ : BufTy).Contents (Elt F)),
    reshape main_v152 main_v153 rfl shapeCasts_S1x9_S9,
    unary main_v153 main_v154 (broadcastInDim S1x9 ![1] bcast_S9_S1x9_1 : (⟨S9, .f32⟩ : BufTy).Contents (Elt F) → (⟨S1x9, .f32⟩ : BufTy).Contents (Elt F)),
    binary main_v151 main_v154 main_v155 (addf : (⟨S1x9, .f32⟩ : BufTy).Contents (Elt F) → (⟨S1x9, .f32⟩ : BufTy).Contents (Elt F) → (⟨S1x9, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S1x9, .f32⟩) main_call16_v0) (broadcastInDim S1x9 ![] bcast_S_S1x9),
    TRef.binary (TRef.of (T := ⟨S1x9, .f32⟩) main_v155) (TRef.of (T := ⟨S1x9, .f32⟩) main_call16_v0) (TRef.of (T := ⟨S1x9, .f32⟩) main_v156) maximumf,
    unary main_arg3 main_v157 ((extractStridedSlice S1x9x9 ![17, 0, 0] · slices_S18x9x9_S1x9x9_17_0_0) : (⟨S18x9x9, .f32⟩ : BufTy).Contents (Elt F) → (⟨S1x9x9, .f32⟩ : BufTy).Contents (Elt F)),
    reshape main_v157 main_v158 rfl shapeCasts_S1x9x9_S9x9,
    unary main_v158 main_v159 ((transpose S9x9 [1, 0] · transposes_S9x9_S9x9_1_0) : (⟨S9x9, .f32⟩ : BufTy).Contents (Elt F) → (⟨S9x9, .f32⟩ : BufTy).Contents (Elt F)),
    binary main_v156 main_v159 main_v160 ((fun l r => Host.dotGeneral dot_S1x9_S9x9_S1x9_1_0_0_1_n_n none l r) : (⟨S1x9, .f32⟩ : BufTy).Contents (Elt F) → (⟨S9x9, .f32⟩ : BufTy).Contents (Elt F) → (⟨S1x9, .f32⟩ : BufTy).Contents (Elt F)),
    unary main_arg4 main_v161 ((extractStridedSlice S1x9 ![17, 0] · slices_S18x9_S1x9_17_0) : (⟨S18x9, .f32⟩ : BufTy).Contents (Elt F) → (⟨S1x9, .f32⟩ : BufTy).Contents (Elt F)),
    reshape main_v161 main_v162 rfl shapeCasts_S1x9_S9,
    unary main_v162 main_v163 (broadcastInDim S1x9 ![1] bcast_S9_S1x9_1 : (⟨S9, .f32⟩ : BufTy).Contents (Elt F) → (⟨S1x9, .f32⟩ : BufTy).Contents (Elt F)),
    binary main_v160 main_v163 main_v164 (addf : (⟨S1x9, .f32⟩ : BufTy).Contents (Elt F) → (⟨S1x9, .f32⟩ : BufTy).Contents (Elt F) → (⟨S1x9, .f32⟩ : BufTy).Contents (Elt F)),
    nary ![main_v11, main_v20, main_v29, main_v38, main_v47, main_v56, main_v65, main_v74, main_v83, main_v92, main_v101, main_v110, main_v119, main_v128, main_v137, main_v146] main_v165 (fun u => Chain.cat16 (F := F) (u 0) (u 1) (u 2) (u 3) (u 4) (u 5) (u 6) (u 7) (u 8) (u 9) (u 10) (u 11) (u 12) (u 13) (u 14) (u 15)),
    binary main_v155 main_v164 main_v166 ((fun a b => Chain.cat2 (F := F) a b) : (⟨S1x9, .f32⟩ : BufTy).Contents (Elt F) → (⟨S1x9, .f32⟩ : BufTy).Contents (Elt F) → (⟨S1x18, .f32⟩ : BufTy).Contents (Elt F)),
    binary main_v165 main_v166 main_v167 ((fun a b => Chain.catBoth (F := F) a b) : (⟨S1x144, .f32⟩ : BufTy).Contents (Elt F) → (⟨S1x18, .f32⟩ : BufTy).Contents (Elt F) → (⟨S1x162, .f32⟩ : BufTy).Contents (Elt F)),
    reshape main_v167 main_v168 rfl shapeCasts_S1x162_S3x6x3x3,
    TRef.nullary (TRef.of (T := ⟨S_, .f32⟩) main_call17_cst) (constant S_ .f32 0x00000000#32),
    TRef.unary (TRef.of (T := ⟨S_, .f32⟩) main_call17_cst) (TRef.of (T := ⟨S1x9, .f32⟩) main_call17_v0) (broadcastInDim S1x9 ![] bcast_S_S1x9),
    TRef.binary (TRef.of (T := ⟨S1x9, .f32⟩) main_v164) (TRef.of (T := ⟨S1x9, .f32⟩) main_call17_v0) (TRef.of (T := ⟨S1x9, .f32⟩) main_v169) maximumf,
    unary main_arg5 main_v170 ((transpose S9x3 [1, 0] · transposes_S3x9_S9x3_1_0) : (⟨S3x9, .f32⟩ : BufTy).Contents (Elt F) → (⟨S9x3, .f32⟩ : BufTy).Contents (Elt F)),
    binary main_v169 main_v170 main_v171 ((fun l r => Host.dotGeneral dot_S1x9_S9x3_S1x3_1_0_0_1_n_n none l r) : (⟨S1x9, .f32⟩ : BufTy).Contents (Elt F) → (⟨S9x3, .f32⟩ : BufTy).Contents (Elt F) → (⟨S1x3, .f32⟩ : BufTy).Contents (Elt F)),
    unary main_arg6 main_v172 (broadcastInDim S1x3 ![1] bcast_S3_S1x3_1 : (⟨S3, .f32⟩ : BufTy).Contents (Elt F) → (⟨S1x3, .f32⟩ : BufTy).Contents (Elt F)),
    binary main_v171 main_v172 main_v173 (addf : (⟨S1x3, .f32⟩ : BufTy).Contents (Elt F) → (⟨S1x3, .f32⟩ : BufTy).Contents (Elt F) → (⟨S1x3, .f32⟩ : BufTy).Contents (Elt F)),
    reshape main_v173 main_v174 rfl shapeCasts_S1x3_S3 ]

/-- @main's operations, in order. -/
abbrev ops : List (HloOp τ sig (Elt F)) := ops_part0 ++ (ops_part1 ++ ops_part2)

/-! ## @main is that line -/

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and allocates nothing -/

set_option maxRecDepth 8192 in
theorem ops_part0_sub : (ops_part0 : List (HloOp τ sig (Elt F))).Forall fun op => op.bufs ⊆ tcRefs τ sig :=
  ⟨unary_bufs_sub .., binary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub ..⟩
set_option maxRecDepth 8192 in
theorem ops_part1_sub : (ops_part1 : List (HloOp τ sig (Elt F))).Forall fun op => op.bufs ⊆ tcRefs τ sig :=
  ⟨unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub ..⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., nary_bufs_sub .., binary_bufs_sub .., binary_bufs_sub .., reshape_bufs_sub .., nullary_bufs_sub .., unary_bufs_sub .., binary_bufs_sub .., unary_bufs_sub .., binary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h,
      List.forall_iff_forall_mem.mp ops_part2_sub op h]

set_option maxRecDepth 8192 in
theorem ops_part0_fresh : (ops_part0 : List (HloOp τ sig (Elt F))).Forall fun op => op.fresh = ∅ := by
  simp only [List.Forall]; repeat' constructor
set_option maxRecDepth 8192 in
theorem ops_part1_fresh : (ops_part1 : List (HloOp τ sig (Elt F))).Forall fun op => op.fresh = ∅ := by
  simp only [List.Forall]; repeat' constructor
set_option maxRecDepth 8192 in
theorem ops_part2_fresh : (ops_part2 : List (HloOp τ sig (Elt F))).Forall fun op => op.fresh = ∅ := by
  simp only [List.Forall]; repeat' constructor

theorem ops_fresh : ∀ op ∈ (ops : List (HloOp τ sig (Elt F))), op.fresh = ∅ := fun op h => by
  simp only [ops, List.mem_append] at h
  rcases h with h | h | h
  exacts [List.forall_iff_forall_mem.mp ops_part0_fresh op h, List.forall_iff_forall_mem.mp ops_part1_fresh op h,
    List.forall_iff_forall_mem.mp ops_part2_fresh op h]

/-- The fold over @main's operations is the three windows' folds, one after the other. -/
theorem after_ops (V0 : Valuation τ sig (Elt F)) : after ops V0 = after ops_part2 (after ops_part1 (after ops_part0 V0)) := by
  simp only [ops, StableHlo.after_append]

/-! ## The fold, read at the results and at the arguments -/

set_option maxRecDepth 16384 in
set_option maxHeartbeats 16000000 in
/-- The first result is the eighteen rows of the network, laid end to end and recast as 3 × 6 × 3 × 3: the fold read at
    its buffer, the last window first. -/
theorem after_rows (V0 : Valuation τ sig (Elt F)) :
    after ops V0 (Proc.devRef .tc main_v168)
      = shapeCast S3x6x3x3 (Chain.rows (V0 (Proc.devRef .tc main_arg0)) (V0 (Proc.devRef .tc main_arg1)) (V0 (Proc.devRef .tc main_arg2))
          (V0 (Proc.devRef .tc main_arg3)) (V0 (Proc.devRef .tc main_arg4))) shapeCasts_S1x162_S3x6x3x3 := by
  rw [after_ops]
  after_results_simp
  try dsimp only [Matrix.cons_val]
  try after_results_simp
  rfl

set_option maxRecDepth 16384 in
set_option maxHeartbeats 16000000 in
/-- The second result is the network's last layer, recast as a vector of three. -/
theorem after_bias (V0 : Valuation τ sig (Elt F)) :
    after ops V0 (Proc.devRef .tc main_v174)
      = shapeCast S3 (Chain.bias (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) (V0 (Proc.devRef .tc main_arg6)))
          shapeCasts_S1x3_S3 := by
  rw [after_ops]
  after_results_simp
  rfl

set_option maxRecDepth 16384 in
set_option maxHeartbeats 16000000 in
/-- No operation writes an argument buffer. -/
theorem after_args (V0 : Valuation τ sig (Elt F)) :
    after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5)
    ∧ after ops V0 (Proc.devRef .tc main_arg6) = V0 (Proc.devRef .tc main_arg6) := by
  rw [after_ops]
  refine ⟨?_, ?_, ?_, ?_, ?_, ?_, ?_⟩ <;> after_results_simp

/-! ## The run -/

set_option maxRecDepth 8192 in
/-- Every weakly fair execution of the reference terminates with its two results at the network's rows and last layer
    of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168)
        = shapeCast S3x6x3x3 (Chain.rows (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
            shapeCasts_S1x162_S3x6x3x3
      ∧ r.2.mem ((c.tc : Thread nD τ).loc main_v174)
        = shapeCast S3 (Chain.bias (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))) shapeCasts_S1x3_S3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v168).trans (after_rows (launchContents m c)),
      (h c main_v174).trans (after_bias (launchContents m c)),
      (h c main_arg0).trans (after_args (launchContents m c)).1,
      (h c main_arg1).trans (after_args (launchContents m c)).2.1,
      (h c main_arg2).trans (after_args (launchContents m c)).2.2.1,
      (h c main_arg3).trans (after_args (launchContents m c)).2.2.2.1,
      (h c main_arg4).trans (after_args (launchContents m c)).2.2.2.2.1,
      (h c main_arg5).trans (after_args (launchContents m c)).2.2.2.2.2.1,
      (h c main_arg6).trans (after_args (launchContents m c)).2.2.2.2.2.2⟩)
    (run_seq scopedRefs_eq scopedSems_eq defs main (fun _ => ops) main_eq (fun _ => ops_sub) m ρ (hfresh := fun _ => ops_fresh))

end Cert.ReferenceIdeal.Windows

end
-- ==== Proof.LibHostForms.lean ====
/-
  Three ways in which a kernel and a host program spell one value, each as an equation of whole vectors.

  * A load through a unit-stride rectangle reads the elements at the rectangle's offsets plus the position in the
    rectangle; the host's unit-stride slice at those offsets reads the same elements (`ld_unit_eq_slice`).
  * A vector of `n` entries recast as a one-row matrix has entry `t` at `(0, t)`; so has the vector broadcast
    along axis 1 of a one-row matrix (`shapeCast_row_eq_broadcastInDim`).
  * Eighteen one-row pieces of width nine laid end to end fill columns `9 k … 9 k + 8` with piece `k`; laying the
    first sixteen end to end, then the last two, then the two results end to end puts piece `k` in the same columns
    (`concat18_eq_concat16_concat2`; as functions of the eighteen rows, `cat18_eq_cat16_2`).
  Nothing here depends on the element type.
-/
import Idealize.ShloMosaic.Lib.Pipeline.Value
import Idealize.ShloMosaic.Lib.Pipeline.FrameBody
import Idealize.ShloMosaic.Lib.ValueIdx

namespace Cert.HostForms

open Idealize.ShloMosaic Idealize.ShloMosaic.ValueIdx

/-! ## A load through a unit-stride rectangle is the host's slice -/

section Slice
variable {S : Shape}

/-- A unit-stride rectangle that fits in `S` is a block of `S` in the host's sense: same rank, in range on every axis. -/
theorem slices_of_inb (off size : Fin S.rank → Nat) (inb : ∀ a, off a + size a ≤ S.size a) :
    S.Slices off ⟨S.rank, size⟩ := ⟨rfl, fun a => inb a⟩

/-- A load of contents `X` through the unit-stride rectangle at `off` of extents `size` reads `X` at `off + j` on each
    axis: the host's slice of `X` at `off` of the same extents. -/
theorem ld_unit_eq_slice {Val : EltTy → Type} {e : EltTy} (off size : Fin S.rank → Nat)
    (inb : ∀ a, off a + size a ≤ S.size a) (X : S.Idx → Val e) :
    View.ld X (Rect.unit off size inb)
      = extractStridedSlice (⟨S.rank, size⟩ : Shape) off X (slices_of_inb off size inb) := by
  funext j
  refine Eq.symm (extractStridedSlice_apply off X (slices_of_inb off size inb) j ((Rect.unit off size inb).idx j) fun a => ?_)
  show off a + 1 * (j a).val = off a + (j a).val
  rw [Nat.one_mul]

end Slice

/-! ## A vector as a one-row matrix -/

section Row
variable {α : Type}

/-- A vector of `n` entries broadcasts along axis 1 of a one-row matrix of `n` columns. -/
theorem bcast_row (n : Nat) : (⟨1, ![n]⟩ : Shape).BroadcastsInDim ⟨2, ![1, n]⟩ ![1] :=
  ⟨fun a b _ => Subsingleton.elim a b, fun a => by
    match a with
    | ⟨0, _⟩ => exact Or.inr rfl⟩

/-- The one-row cast of a vector is its broadcast along axis 1: both have the vector's entry `t` at `(0, t)`. -/
theorem shapeCast_row_eq_broadcastInDim {n : Nat} (x : (⟨1, ![n]⟩ : Shape).Idx → α)
    (h1 : (⟨1, ![n]⟩ : Shape).ShapeCasts ⟨2, ![1, n]⟩) :
    shapeCast ⟨2, ![1, n]⟩ x h1 = broadcastInDim ⟨2, ![1, n]⟩ ![1] (bcast_row n) x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] (bcast_row n) x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Row

/-! ## Eighteen rows of nine laid end to end, at once or sixteen and two -/

section Concat
variable {α : Type}

/-- Sixteen rows of nine fill a row of 144. -/
theorem cat16 : Shape.Concatenates (List.replicate 16 (⟨2, ![1, 9]⟩ : Shape)) ⟨2, ![1, 144]⟩ 1 := by decide
/-- Two rows of nine fill a row of eighteen. -/
theorem cat2 : Shape.Concatenates (List.replicate 2 (⟨2, ![1, 9]⟩ : Shape)) ⟨2, ![1, 18]⟩ 1 := by decide
/-- A row of 144 and a row of eighteen fill a row of 162. -/
theorem cat144_18 : Shape.Concatenates [(⟨2, ![1, 144]⟩ : Shape), ⟨2, ![1, 18]⟩] ⟨2, ![1, 162]⟩ 1 := by decide

/-- Eighteen one-row pieces of width nine laid end to end along the columns are the first sixteen laid end to end, the
    last two laid end to end, and those two results laid end to end: in each, column `q` holds entry `q % 9` of piece
    `q / 9`. -/
theorem concat18_eq_concat16_concat2 (v0 v1 v2 v3 v4 v5 v6 v7 v8 v9 v10 v11 v12 v13 v14 v15 v16 v17 : (⟨2, ![1, 9]⟩ : Shape).Idx → α)
    (h18 : Shape.Concatenates (([⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩, ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩, ⟨⟨2, ![1, 9]⟩, v12⟩, ⟨⟨2, ![1, 9]⟩, v13⟩, ⟨⟨2, ![1, 9]⟩, v14⟩, ⟨⟨2, ![1, 9]⟩, v15⟩, ⟨⟨2, ![1, 9]⟩, v16⟩, ⟨⟨2, ![1, 9]⟩, v17⟩] : List ((s : Shape) × (s.Idx → α))).map (·.1)) ⟨2, ![1, 162]⟩ 1) :
    concatenate ⟨2, ![1, 162]⟩ 1 [⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩, ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩, ⟨⟨2, ![1, 9]⟩, v12⟩, ⟨⟨2, ![1, 9]⟩, v13⟩, ⟨⟨2, ![1, 9]⟩, v14⟩, ⟨⟨2, ![1, 9]⟩, v15⟩, ⟨⟨2, ![1, 9]⟩, v16⟩, ⟨⟨2, ![1, 9]⟩, v17⟩] h18
      = concatenate ⟨2, ![1, 162]⟩ 1
          [⟨⟨2, ![1, 144]⟩, concatenate ⟨2, ![1, 144]⟩ 1 [⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩, ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩, ⟨⟨2, ![1, 9]⟩, v12⟩, ⟨⟨2, ![1, 9]⟩, v13⟩, ⟨⟨2, ![1, 9]⟩, v14⟩, ⟨⟨2, ![1, 9]⟩, v15⟩] cat16⟩,
           ⟨⟨2, ![1, 18]⟩, concatenate ⟨2, ![1, 18]⟩ 1 [⟨⟨2, ![1, 9]⟩, v16⟩, ⟨⟨2, ![1, 9]⟩, v17⟩] cat2⟩] cat144_18 := by
  funext j
  obtain ⟨r, q, rfl⟩ : ∃ (r : Fin 1) (q : Fin 162), j = ix2 r q := ⟨j 0, j 1, eq_ix2 j⟩
  have hr0 : r = 0 := Subsingleton.elim _ _
  subst hr0
  have hq : q.val < 162 := q.isLt
  -- the pieces as one family, and its first sixteen and last two members
  let f : Fin 18 → ((⟨2, ![1, 9]⟩ : Shape).Idx → α) := ![v0, v1, v2, v3, v4, v5, v6, v7, v8, v9, v10, v11, v12, v13, v14, v15, v16, v17]
  let f16 : Fin 16 → ((⟨2, ![1, 9]⟩ : Shape).Idx → α) := fun n => f ⟨n.val, by have := n.isLt; omega⟩
  let f2 : Fin 2 → ((⟨2, ![1, 9]⟩ : Shape).Idx → α) := fun n => f ⟨16 + n.val, by have := n.isLt; omega⟩
  -- all eighteen at once: piece q / 9 at column q % 9
  have hL : concatenate ⟨2, ![1, 162]⟩ 1 [⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩, ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩, ⟨⟨2, ![1, 9]⟩, v12⟩, ⟨⟨2, ![1, 9]⟩, v13⟩, ⟨⟨2, ![1, 9]⟩, v14⟩, ⟨⟨2, ![1, 9]⟩, v15⟩, ⟨⟨2, ![1, 9]⟩, v16⟩, ⟨⟨2, ![1, 9]⟩, v17⟩] h18 (ix2 (0 : Fin 1) q)
      = f ⟨q.val / 9, by omega⟩ (ix2 (0 : Fin 1) (⟨q.val % 9, by omega⟩ : Fin 9)) :=
    concatenate_ofFn_apply (t := ⟨2, ![1, 162]⟩) (s₁ := ⟨2, ![1, 9]⟩) (1 : Fin 2) f h18 rfl 9 rfl (ix2 (0 : Fin 1) q)
      ⟨q.val / 9, by omega⟩ rfl (ix2 (0 : Fin 1) (⟨q.val % 9, by omega⟩ : Fin 9)) rfl (by
        intro b hb
        match b with
        | ⟨0, _⟩ => rfl
        | ⟨1, _⟩ => exact absurd rfl hb)
  rw [hL]
  by_cases hlt : q.val < 144
  · -- a column of the first sixteen
    refine Eq.symm ((concatenate_pair_apply_left (t := ⟨2, ![1, 162]⟩) (s₁ := ⟨2, ![1, 144]⟩) (s₂ := ⟨2, ![1, 18]⟩) (1 : Fin 2) _ _ _
      (ix2 (0 : Fin 1) q) rfl (ix2 (0 : Fin 1) (⟨q.val, hlt⟩ : Fin 144)) (by
        intro b
        match b with
        | ⟨0, _⟩ => rfl
        | ⟨1, _⟩ => rfl)).trans ?_)
    exact concatenate_ofFn_apply (t := ⟨2, ![1, 144]⟩) (s₁ := ⟨2, ![1, 9]⟩) (1 : Fin 2) f16 cat16 rfl 9 rfl
      (ix2 (0 : Fin 1) (⟨q.val, hlt⟩ : Fin 144)) ⟨q.val / 9, by omega⟩ rfl (ix2 (0 : Fin 1) (⟨q.val % 9, by omega⟩ : Fin 9)) rfl (by
        intro b hb
        match b with
        | ⟨0, _⟩ => rfl
        | ⟨1, _⟩ => exact absurd rfl hb)
  · -- a column of the last two
    have hge : 144 ≤ q.val := Nat.le_of_not_lt hlt
    refine Eq.symm ((concatenate_pair_apply_right (t := ⟨2, ![1, 162]⟩) (s₁ := ⟨2, ![1, 144]⟩) (s₂ := ⟨2, ![1, 18]⟩) (1 : Fin 2) _ _ _
      (ix2 (0 : Fin 1) q) rfl rfl (ix2 (0 : Fin 1) (⟨q.val - 144, by omega⟩ : Fin 18)) (by
        intro b hb
        match b with
        | ⟨0, _⟩ => rfl
        | ⟨1, _⟩ => exact absurd rfl hb) (by
        show q.val - 144 + 144 = q.val; omega)).trans ?_)
    refine (concatenate_ofFn_apply (t := ⟨2, ![1, 18]⟩) (s₁ := ⟨2, ![1, 9]⟩) (1 : Fin 2) f2 cat2 rfl 9 rfl
      (ix2 (0 : Fin 1) (⟨q.val - 144, by omega⟩ : Fin 18)) ⟨(q.val - 144) / 9, by omega⟩ rfl
      (ix2 (0 : Fin 1) (⟨(q.val - 144) % 9, by omega⟩ : Fin 9)) rfl (by
        intro b hb
        match b with
        | ⟨0, _⟩ => rfl
        | ⟨1, _⟩ => exact absurd rfl hb)).trans ?_
    -- the same piece at the same column, named two ways
    have key : ∀ (a b : Fin 18) (x y : Fin 9), a.val = b.val → x.val = y.val →
        f a (ix2 (0 : Fin 1) x) = f b (ix2 (0 : Fin 1) y) := by
      intro a b x y h1 h2
      obtain rfl : a = b := Fin.ext h1
      obtain rfl : x = y := Fin.ext h2
      rfl
    exact key _ _ _ _ (by show 16 + (q.val - 144) / 9 = q.val / 9; omega) (by show (q.val - 144) % 9 = q.val % 9; omega)

/-- Eighteen rows of nine fill a row of 162. -/
theorem cat18_fits : Shape.Concatenates (List.replicate 18 (⟨2, ![1, 9]⟩ : Shape)) ⟨2, ![1, 162]⟩ 1 := by decide

/-- Eighteen rows of nine laid end to end, as a function of the eighteen rows. -/
def cat18 (v0 v1 v2 v3 v4 v5 v6 v7 v8 v9 v10 v11 v12 v13 v14 v15 v16 v17 : (⟨2, ![1, 9]⟩ : Shape).Idx → α) :
    (⟨2, ![1, 162]⟩ : Shape).Idx → α :=
  concatenate ⟨2, ![1, 162]⟩ 1
    [⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩,
     ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩,
     ⟨⟨2, ![1, 9]⟩, v12⟩, ⟨⟨2, ![1, 9]⟩, v13⟩, ⟨⟨2, ![1, 9]⟩, v14⟩, ⟨⟨2, ![1, 9]⟩, v15⟩, ⟨⟨2, ![1, 9]⟩, v16⟩, ⟨⟨2, ![1, 9]⟩, v17⟩]
    cat18_fits

/-- The same rows laid end to end sixteen and two at a time, then the two results. -/
def cat16_2 (v0 v1 v2 v3 v4 v5 v6 v7 v8 v9 v10 v11 v12 v13 v14 v15 v16 v17 : (⟨2, ![1, 9]⟩ : Shape).Idx → α) :
    (⟨2, ![1, 162]⟩ : Shape).Idx → α :=
  concatenate ⟨2, ![1, 162]⟩ 1
    [⟨⟨2, ![1, 144]⟩, concatenate ⟨2, ![1, 144]⟩ 1
        [⟨⟨2, ![1, 9]⟩, v0⟩, ⟨⟨2, ![1, 9]⟩, v1⟩, ⟨⟨2, ![1, 9]⟩, v2⟩, ⟨⟨2, ![1, 9]⟩, v3⟩, ⟨⟨2, ![1, 9]⟩, v4⟩, ⟨⟨2, ![1, 9]⟩, v5⟩,
         ⟨⟨2, ![1, 9]⟩, v6⟩, ⟨⟨2, ![1, 9]⟩, v7⟩, ⟨⟨2, ![1, 9]⟩, v8⟩, ⟨⟨2, ![1, 9]⟩, v9⟩, ⟨⟨2, ![1, 9]⟩, v10⟩, ⟨⟨2, ![1, 9]⟩, v11⟩,
         ⟨⟨2, ![1, 9]⟩, v12⟩, ⟨⟨2, ![1, 9]⟩, v13⟩, ⟨⟨2, ![1, 9]⟩, v14⟩, ⟨⟨2, ![1, 9]⟩, v15⟩] cat16⟩,
     ⟨⟨2, ![1, 18]⟩, concatenate ⟨2, ![1, 18]⟩ 1 [⟨⟨2, ![1, 9]⟩, v16⟩, ⟨⟨2, ![1, 9]⟩, v17⟩] cat2⟩]
    cat144_18

/-- The two ways of laying the eighteen rows end to end give one row of 162. -/
theorem cat18_eq_cat16_2 (v0 v1 v2 v3 v4 v5 v6 v7 v8 v9 v10 v11 v12 v13 v14 v15 v16 v17 : (⟨2, ![1, 9]⟩ : Shape).Idx → α) :
    cat18 v0 v1 v2 v3 v4 v5 v6 v7 v8 v9 v10 v11 v12 v13 v14 v15 v16 v17
      = cat16_2 v0 v1 v2 v3 v4 v5 v6 v7 v8 v9 v10 v11 v12 v13 v14 v15 v16 v17 :=
  concat18_eq_concat16_concat2 v0 v1 v2 v3 v4 v5 v6 v7 v8 v9 v10 v11 v12 v13 v14 v15 v16 v17 cat18_fits

end Concat

end Cert.HostForms
-- ==== Proof.Bridge.lean ====
/-
  The kernel's two stored vectors are the network of `Cert.ReferenceIdeal.Chain`, at the exact values.

  Operation by operation the kernel's body and the reference compute the same thing and only spell it differently:
  a load of slab `i` of the weights (or row `i` of the biases) through a literal rectangle is the host's slice at the
  same offsets; a load of a whole array is the array; `tpu.matmul` into a zero accumulator is the host's
  `dot_general` (0 + x = x, at the infinities too); a vector recast as one row is the vector broadcast along axis 1;
  a splat of zero is the host's broadcast of the zero constant; and eighteen rows laid end to end at once are the
  same rows laid end to end sixteen and two at a time. No law of arithmetic beyond 0 + x = x is used, so nothing
  here needs the inputs finite.
-/
import proofs.«103423_j90924457656423_1_alg».proof.Proof.Gen.KernelIdeal.Frame
import proofs.«103423_j90924457656423_1_alg».proof.Proof.RefSpec
import proofs.«103423_j90924457656423_1_alg».proof.Proof.LibHostForms
import Idealize.ShloMosaic.Lib.KernelVsHost

set_option maxRecDepth 16384
set_option pp.maxSteps 5000
set_option pp.deepTerms false

noncomputable section

namespace Cert.Bridge

open Idealize.ShloMosaic Idealize.ShloMosaic.TcCoe
open Cert.KernelIdeal Cert.KernelIdeal.Gen

theorem hz1 : (![0] : Fin 1 → Nat) = fun _ => 0 := funext fun a => by fin_cases a <;> rfl
theorem hz2 : (![0, 0] : Fin 2 → Nat) = fun _ => 0 := funext fun a => by fin_cases a <;> rfl

variable (x0 : Vec Ideal S1x2 .f32) (x1 : Vec Ideal S9x2 .f32) (x2 : Vec Ideal S9 .f32) (x3 : Vec Ideal S18x9x9 .f32)
  (x4 : Vec Ideal S18x9 .f32) (x5 : Vec Ideal S3x9 .f32) (x6 : Vec Ideal S3 .f32)

set_option maxHeartbeats 4000000 in
/-- The bias row the kernel stores is the network's last layer on the relu of the last row. -/
theorem bias_eq : out0_8 (F := Ideal) x0 x1 x2 x3 x4 x5 x6 = Cert.ReferenceIdeal.Chain.bias (F := Ideal) x0 x1 x2 x3 x4 x5 x6 := by
  unfold out0_8
  rw [View.canon_unit_zero hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  simp only [View.ld_unit_zero (S := S1x2) hz2, View.ld_unit_zero (S := S9x2) hz2, View.ld_unit_zero (S := S9) hz1,
    View.ld_unit_zero (S := S3x9) hz2, View.ld_unit_zero (S := S3) hz1]
  simp only [Cert.HostForms.ld_unit_eq_slice]
  simp only [matmul_zero_eq_dotGeneral, Cert.HostForms.shapeCast_row_eq_broadcastInDim]
  rfl

/-- The body's concatenation of its eighteen rows, as the function of the rows. -/
theorem pay2_eq_cat18 (v14 v24 v34 v44 v54 v64 v74 v84 v94 v104 v114 v124 v134 v144 v154 v164 v174 v184 : FVec Ideal S1x9 .f32) :
    k0_pay2 (F := Ideal) v14 v24 v34 v44 v54 v64 v74 v84 v94 v104 v114 v124 v134 v144 v154 v164 v174 v184
      = Cert.HostForms.cat18 v14 v24 v34 v44 v54 v64 v74 v84 v94 v104 v114 v124 v134 v144 v154 v164 v174 v184 := rfl

set_option maxHeartbeats 16000000 in
/-- The concatenated rows the kernel stores are the network's eighteen rows laid end to end. -/
theorem rows_eq : out0_7 (F := Ideal) x0 x1 x2 x3 x4 x5 x6 = Cert.ReferenceIdeal.Chain.rows (F := Ideal) x0 x1 x2 x3 x4 := by
  unfold out0_7
  rw [View.canon_unit_zero hz2, pay2_eq_cat18]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  simp only [View.ld_unit_zero (S := S1x2) hz2, View.ld_unit_zero (S := S9x2) hz2, View.ld_unit_zero (S := S9) hz1]
  simp only [Cert.HostForms.ld_unit_eq_slice]
  simp only [matmul_zero_eq_dotGeneral, Cert.HostForms.shapeCast_row_eq_broadcastInDim]
  rw [Cert.HostForms.cat18_eq_cat16_2]
  rfl

end Cert.Bridge

end
-- ==== Proof.lean ====
/-
  A chain of nineteen small affine layers (2 → 9, eighteen of 9 → 9 with a relu before all but the first of them, and
  a last 9 → 3 on the relu of the last row), computed by one gridless kernel and by the plain reference.

  Both programs compute, at the exact values, the same function of the seven argument arrays: the eighteen rows
  `row 0 = (x W0ᵀ + b0) Ws[0]ᵀ + bs[0]`, `row (i + 1) = relu (row i) Ws[i + 1]ᵀ + bs[i + 1]`, laid end to end and recast
  as 3 × 6 × 3 × 3, and the three numbers `relu (row 17) Wbᵀ + bb`. The kernel's side: its one grid point's blocks are
  the whole arrays, so its two output arrays hold what its body stores, which two reshapes recast (KernelRun.lean);
  what it stores is that network, operation by operation (Bridge.lean, over LibHostForms.lean). The reference's side:
  its @main is three straight lines of host operations whose fold, read at the two results, is that network
  (RefRun.lean over RefSpec.lean). The only law of arithmetic used is 0 + x = x (an accumulator that starts at zero),
  which holds at the infinities too, so the precondition is never opened. The three frames: the kernel's two from its
  one-point pipeline run, the reference's from its run with the results dropped; the kernel's idealization rewrote no
  operation.
-/
import proofs.«103423_j90924457656423_1_alg».proof.Defs
import proofs.«103423_j90924457656423_1_alg».proof.Proof.Gen.Kernel
import proofs.«103423_j90924457656423_1_alg».proof.Proof.Gen.Kernel.Skeleton
import proofs.«103423_j90924457656423_1_alg».proof.Proof.Gen.Kernel.Launch
import proofs.«103423_j90924457656423_1_alg».proof.Proof.Gen.Kernel.Points
import proofs.«103423_j90924457656423_1_alg».proof.Proof.Gen.Kernel.Frame
import proofs.«103423_j90924457656423_1_alg».proof.Proof.Gen.KernelIdeal
import proofs.«103423_j90924457656423_1_alg».proof.Proof.Gen.KernelIdeal.Skeleton
import proofs.«103423_j90924457656423_1_alg».proof.Proof.Gen.KernelIdeal.Launch
import proofs.«103423_j90924457656423_1_alg».proof.Proof.Gen.KernelIdeal.Points
import proofs.«103423_j90924457656423_1_alg».proof.Proof.Gen.KernelIdeal.Frame
import proofs.«103423_j90924457656423_1_alg».proof.Proof.Gen.ReferenceIdeal
import proofs.«103423_j90924457656423_1_alg».proof.Proof.Gen.Pre_finite_inputs
import proofs.«103423_j90924457656423_1_alg».proof.Proof.KernelRun
import proofs.«103423_j90924457656423_1_alg».proof.Proof.RefRun
import proofs.«103423_j90924457656423_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: its one-point pipeline's frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Windows.run (F := Ideal) m ρ)

/-- From memories that agree on the arguments both programs end with the network's rows, recast, and its last layer,
    recast: the kernel's stored vectors are the network's (`Cert.Bridge.rows_eq`, `bias_eq`). -/
theorem algebraic : Cert.algebraic_KernelIdeal_ReferenceIdeal := by
  intro m ρ m' ρ' _ hagree
  refine ⟨_, _, Cert.KernelIdeal.Region.run (F := Ideal) m ρ, ?_⟩
  refine (θ_run Cert.ReferenceIdeal.defs _ _).mono (fun _ h c => ⟨(h c).1.trans ?_, (h c).2.1.trans ?_, (h c).2.2⟩)
    (Cert.ReferenceIdeal.Windows.run (F := Ideal) m' ρ')
  · rw [(hagree c).1, (hagree c).2.1, (hagree c).2.2.1, (hagree c).2.2.2.1, (hagree c).2.2.2.2.1]
    exact congrArg (fun X : Vec Ideal Cert.KernelIdeal.S1x162 .f32 =>
        shapeCast Cert.KernelIdeal.S3x6x3x3 X Cert.KernelIdeal.Gen.shapeCasts_S1x162_S3x6x3x3)
      (Cert.Bridge.rows_eq _ _ _ _ _ _ _).symm
  · rw [(hagree c).1, (hagree c).2.1, (hagree c).2.2.1, (hagree c).2.2.2.1, (hagree c).2.2.2.2.1, (hagree c).2.2.2.2.2.1,
      (hagree c).2.2.2.2.2.2]
    exact congrArg (fun X : Vec Ideal Cert.KernelIdeal.S1x3 .f32 =>
        shapeCast Cert.KernelIdeal.S3 X Cert.KernelIdeal.Gen.shapeCasts_S1x3_S3)
      (Cert.Bridge.bias_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
